-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1200000 32) (main_arg2 : IVec S1200000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1 : Shape := ⟨1, ![1]⟩
abbrev S1x1 : Shape := ⟨2, ![1, 1]⟩
abbrev S1200000x64 : Shape := ⟨2, ![1200000, 64]⟩
abbrev S1x64 : Shape := ⟨2, ![1, 64]⟩
abbrev S10000x64 : Shape := ⟨2, ![10000, 64]⟩

abbrev nBuf : Space → Nat
  | .hbm => 135
  | .vmem => 20
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S_, .f32⟩
  | 10 => ⟨S1200000, .f32⟩
  | 11 => ⟨S_, .f32⟩
  | 12 => ⟨S100000, .f32⟩
  | 13 => ⟨S1200000x1, .i32⟩
  | 14 => ⟨S100000, .f32⟩
  | 15 => ⟨S_, .f32⟩
  | 16 => ⟨S100000, .f32⟩
  | 17 => ⟨S1200000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x64, .f32⟩
  | 31 => ⟨S100000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1, .i32⟩
  | 41 => ⟨S_, .i32⟩
  | 42 => ⟨S1200000x1, .i32⟩
  | 43 => ⟨S1200000x1, .i1⟩
  | 44 => ⟨S1x1, .i32⟩
  | 45 => ⟨S1200000x1, .i32⟩
  | 46 => ⟨S1200000x1, .i1⟩
  | 47 => ⟨S1200000x1, .i1⟩
  | 48 => ⟨S_, .i1⟩
  | 49 => ⟨S1200000, .i1⟩
  | 50 => ⟨S1200000x64, .f32⟩
  | 51 => ⟨S1200000x64, .i1⟩
  | 52 => ⟨S_, .f32⟩
  | 53 => ⟨S1200000x64, .f32⟩
  | 54 => ⟨S1200000x64, .f32⟩
  | 55 => ⟨S_, .f32⟩
  | 56 => ⟨S100000x64, .f32⟩
  | 57 => ⟨S1200000x1, .i32⟩
  | 58 => ⟨S100000x64, .f32⟩
  | 59 => ⟨S100000x1, .f32⟩
  | 60 => ⟨S100000x64, .f32⟩
  | 61 => ⟨S100000x64, .f32⟩
  | 62 => ⟨S1x64, .f32⟩
  | 63 => ⟨S100000x64, .f32⟩
  | 64 => ⟨S100000x1, .f32⟩
  | 65 => ⟨S100000x64, .f32⟩
  | 66 => ⟨S100000x64, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1, .i32⟩
  | 76 => ⟨S_, .i32⟩
  | 77 => ⟨S1200000x1, .i32⟩
  | 78 => ⟨S1200000x1, .i1⟩
  | 79 => ⟨S1x1, .i32⟩
  | 80 => ⟨S1200000x1, .i32⟩
  | 81 => ⟨S1200000x1, .i1⟩
  | 82 => ⟨S1200000x1, .i1⟩
  | 83 => ⟨S_, .i1⟩
  | 84 => ⟨S1200000, .i1⟩
  | 85 => ⟨S1200000x64, .f32⟩
  | 86 => ⟨S1200000x64, .i1⟩
  | 87 => ⟨S_, .f32⟩
  | 88 => ⟨S1200000x64, .f32⟩
  | 89 => ⟨S1200000x64, .f32⟩
  | 90 => ⟨S_, .f32⟩
  | 91 => ⟨S100000x64, .f32⟩
  | 92 => ⟨S1200000x1, .i32⟩
  | 93 => ⟨S100000x64, .f32⟩
  | 94 => ⟨S100000x1, .f32⟩
  | 95 => ⟨S100000x64, .f32⟩
  | 96 => ⟨S100000x64, .f32⟩
  | 97 => ⟨S1x64, .f32⟩
  | 98 => ⟨S100000x64, .f32⟩
  | 99 => ⟨S100000x1, .f32⟩
  | 100 => ⟨S100000x64, .f32⟩
  | 101 => ⟨S100000x64, .f32⟩
  | 102 => ⟨S_, .i32⟩
  | 103 => ⟨S1200000, .i32⟩
  | 104 => ⟨S1200000, .i1⟩
  | 105 => ⟨S_, .i32⟩
  | 106 => ⟨S1200000, .i32⟩
  | 107 => ⟨S1200000, .i32⟩
  | 108 => ⟨S1200000, .i32⟩
  | 109 => ⟨S1200000x1, .i32⟩
  | 110 => ⟨S1, .i32⟩
  | 111 => ⟨S_, .i32⟩
  | 112 => ⟨S1200000x1, .i32⟩
  | 113 => ⟨S1200000x1, .i1⟩
  | 114 => ⟨S1x1, .i32⟩
  | 115 => ⟨S1200000x1, .i32⟩
  | 116 => ⟨S1200000x1, .i1⟩
  | 117 => ⟨S1200000x1, .i1⟩
  | 118 => ⟨S_, .i1⟩
  | 119 => ⟨S1200000, .i1⟩
  | 120 => ⟨S1200000x64, .f32⟩
  | 121 => ⟨S1200000x64, .i1⟩
  | 122 => ⟨S_, .f32⟩
  | 123 => ⟨S1200000x64, .f32⟩
  | 124 => ⟨S1200000x64, .f32⟩
  | 125 => ⟨S_, .f32⟩
  | 126 => ⟨S100000x64, .f32⟩
  | 127 => ⟨S1200000x1, .i32⟩
  | _ => ⟨S100000x64, .f32⟩

abbrev hbmTy0_1 (i : Nat) : BufTy := match i % 128 with
  | 0 => ⟨S100000x64, .f32⟩
  | 1 => ⟨S100000x1, .f32⟩
  | 2 => ⟨S100000x64, .f32⟩
  | 3 => ⟨S100000x64, .f32⟩
  | 4 => ⟨S1x64, .f32⟩
  | 5 => ⟨S100000x64, .f32⟩
  | 6 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v14 : Ref sig .tc := ⟨.hbm, 54, rfl⟩
abbrev main_cst_4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v26 : Ref sig .tc := ⟨.hbm, 89, rfl⟩
abbrev main_cst_5 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_call4_cst : Ref sig .tc := ⟨.hbm, 122, rfl⟩
abbrev main_call4_v15 : Ref sig .tc := ⟨.hbm, 123, rfl⟩
abbrev main_v38 : Ref sig .tc := ⟨.hbm, 124, rfl⟩
abbrev main_cst_6 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46_0 : Ref sig .tc := ⟨.hbm, 133, rfl⟩
abbrev main_v46_1 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v20) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46_0) S10000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46_1) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1 : Shape := ⟨1, ![1]⟩
abbrev S1x1 : Shape := ⟨2, ![1, 1]⟩
abbrev S1200000x64 : Shape := ⟨2, ![1200000, 64]⟩
abbrev S1x64 : Shape := ⟨2, ![1, 64]⟩

abbrev nBuf : Space → Nat
  | .hbm => 163
  | .vmem => 0
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S_, .f32⟩
  | 10 => ⟨S1200000, .f32⟩
  | 11 => ⟨S_, .f32⟩
  | 12 => ⟨S100000, .f32⟩
  | 13 => ⟨S1200000x1, .i32⟩
  | 14 => ⟨S100000, .f32⟩
  | 15 => ⟨S_, .f32⟩
  | 16 => ⟨S100000, .f32⟩
  | 17 => ⟨S1200000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x64, .f32⟩
  | 31 => ⟨S100000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1, .i32⟩
  | 41 => ⟨S_, .i32⟩
  | 42 => ⟨S1200000x1, .i32⟩
  | 43 => ⟨S1200000x1, .i1⟩
  | 44 => ⟨S1x1, .i32⟩
  | 45 => ⟨S1200000x1, .i32⟩
  | 46 => ⟨S1200000x1, .i1⟩
  | 47 => ⟨S1200000x1, .i1⟩
  | 48 => ⟨S_, .i1⟩
  | 49 => ⟨S1200000, .i1⟩
  | 50 => ⟨S1200000x64, .f32⟩
  | 51 => ⟨S1200000x64, .i1⟩
  | 52 => ⟨S_, .f32⟩
  | 53 => ⟨S1200000x64, .f32⟩
  | 54 => ⟨S1200000x64, .f32⟩
  | 55 => ⟨S_, .f32⟩
  | 56 => ⟨S100000x64, .f32⟩
  | 57 => ⟨S1200000x1, .i32⟩
  | 58 => ⟨S100000x64, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x1, .f32⟩
  | 70 => ⟨S100000x64, .f32⟩
  | 71 => ⟨S100000x64, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1, .i32⟩
  | 81 => ⟨S_, .i32⟩
  | 82 => ⟨S1200000x1, .i32⟩
  | 83 => ⟨S1200000x1, .i1⟩
  | 84 => ⟨S1x1, .i32⟩
  | 85 => ⟨S1200000x1, .i32⟩
  | 86 => ⟨S1200000x1, .i1⟩
  | 87 => ⟨S1200000x1, .i1⟩
  | 88 => ⟨S_, .i1⟩
  | 89 => ⟨S1200000, .i1⟩
  | 90 => ⟨S1200000x64, .f32⟩
  | 91 => ⟨S1200000x64, .i1⟩
  | 92 => ⟨S_, .f32⟩
  | 93 => ⟨S1200000x64, .f32⟩
  | 94 => ⟨S1200000x64, .f32⟩
  | 95 => ⟨S_, .f32⟩
  | 96 => ⟨S100000x64, .f32⟩
  | 97 => ⟨S1200000x1, .i32⟩
  | 98 => ⟨S100000x64, .f32⟩
  | 99 => ⟨S100000x1, .f32⟩
  | 100 => ⟨S100000x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x1, .f32⟩
  | 110 => ⟨S100000x64, .f32⟩
  | 111 => ⟨S100000x64, .f32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1, .i32⟩
  | 121 => ⟨S_, .i32⟩
  | 122 => ⟨S1200000x1, .i32⟩
  | 123 => ⟨S1200000x1, .i1⟩
  | 124 => ⟨S1x1, .i32⟩
  | 125 => ⟨S1200000x1, .i32⟩
  | 126 => ⟨S1200000x1, .i1⟩
  | 127 => ⟨S1200000x1, .i1⟩
  | _ => ⟨S100000x64, .f32⟩

abbrev hbmTy0_1 (i : Nat) : BufTy := match i % 128 with
  | 0 => ⟨S_, .i1⟩
  | 1 => ⟨S1200000, .i1⟩
  | 2 => ⟨S1200000x64, .f32⟩
  | 3 => ⟨S1200000x64, .i1⟩
  | 4 => ⟨S_, .f32⟩
  | 5 => ⟨S1200000x64, .f32⟩
  | 6 => ⟨S1200000x64, .f32⟩
  | 7 => ⟨S_, .f32⟩
  | 8 => ⟨S100000x64, .f32⟩
  | 9 => ⟨S1200000x1, .i32⟩
  | 10 => ⟨S100000x64, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S100000x64, .f32⟩
  | 28 => ⟨S100000x64, .i1⟩
  | 29 => ⟨S_, .f32⟩
  | 30 => ⟨S_, .f32⟩
  | 31 => ⟨S100000x64, .f32⟩
  | 32 => ⟨S100000x64, .f32⟩
  | 33 => ⟨S100000x64, .f32⟩
  | 34 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v14 : Ref sig .tc := ⟨.hbm, 54, rfl⟩
abbrev main_cst_4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_call3_cst : Ref sig .tc := ⟨.hbm, 66, rfl⟩
abbrev main_call3_v0 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call4_c : Ref sig .tc := ⟨.hbm, 72, rfl⟩
abbrev main_call4_v0 : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_c_1 : Ref sig .tc := ⟨.hbm, 80, rfl⟩
abbrev main_call4_c_2 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_c_3 : Ref sig .tc := ⟨.hbm, 88, rfl⟩
abbrev main_call4_v12 : Ref sig .tc := ⟨.hbm, 89, rfl⟩
abbrev main_call4_v13 : Ref sig .tc := ⟨.hbm, 90, rfl⟩
abbrev main_call4_v14 : Ref sig .tc := ⟨.hbm, 91, rfl⟩
abbrev main_call4_cst : Ref sig .tc := ⟨.hbm, 92, rfl⟩
abbrev main_call4_v15 : Ref sig .tc := ⟨.hbm, 93, rfl⟩
abbrev main_v29 : Ref sig .tc := ⟨.hbm, 94, rfl⟩
abbrev main_cst_5 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_call5_cst : Ref sig .tc := ⟨.hbm, 106, rfl⟩
abbrev main_call5_v0 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_call6_c : Ref sig .tc := ⟨.hbm, 112, rfl⟩
abbrev main_call6_v0 : Ref sig .tc := ⟨.hbm, 113, rfl⟩
abbrev main_call6_v1 : Ref sig .tc := ⟨.hbm, 114, rfl⟩
abbrev main_call6_c_0 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_c_1 : Ref sig .tc := ⟨.hbm, 120, rfl⟩
abbrev main_call6_c_2 : Ref sig .tc := ⟨.hbm, 121, rfl⟩
abbrev main_call6_v6 : Ref sig .tc := ⟨.hbm, 122, rfl⟩
abbrev main_call6_v7 : Ref sig .tc := ⟨.hbm, 123, rfl⟩
abbrev main_call6_v8 : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_3 : Ref sig .tc := ⟨.hbm, 128, rfl⟩
abbrev main_call6_v12 : Ref sig .tc := ⟨.hbm, 129, rfl⟩
abbrev main_call6_v13 : Ref sig .tc := ⟨.hbm, 130, rfl⟩
abbrev main_call6_v14 : Ref sig .tc := ⟨.hbm, 131, rfl⟩
abbrev main_call6_cst : Ref sig .tc := ⟨.hbm, 132, rfl⟩
abbrev main_call6_v15 : Ref sig .tc := ⟨.hbm, 133, rfl⟩
abbrev main_v44 : Ref sig .tc := ⟨.hbm, 134, rfl⟩
abbrev main_cst_6 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_cst_7 : Ref sig .tc := ⟨.hbm, 148, rfl⟩
abbrev main_v57 : Ref sig .tc := ⟨.hbm, 149, rfl⟩
abbrev main_v58 : Ref sig .tc := ⟨.hbm, 150, rfl⟩
abbrev main_cst_8 : Ref sig .tc := ⟨.hbm, 151, rfl⟩
abbrev main_v59 : Ref sig .tc := ⟨.hbm, 152, rfl⟩
abbrev main_v60 : Ref sig .tc := ⟨.hbm, 153, rfl⟩
abbrev main_cst_9 : Ref sig .tc := ⟨.hbm, 154, rfl⟩
abbrev main_v61 : Ref sig .tc := ⟨.hbm, 155, rfl⟩
abbrev main_v62 : Ref sig .tc := ⟨.hbm, 156, rfl⟩
abbrev main_cst_10 : Ref sig .tc := ⟨.hbm, 157, rfl⟩
abbrev main_cst_11 : Ref sig .tc := ⟨.hbm, 158, rfl⟩
abbrev main_call7_v0 : Ref sig .tc := ⟨.hbm, 159, rfl⟩
abbrev main_call7_v1 : Ref sig .tc := ⟨.hbm, 160, rfl⟩
abbrev main_v63 : Ref sig .tc := ⟨.hbm, 161, rfl⟩
abbrev main_v64 : Ref sig .tc := ⟨.hbm, 162, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KPlain.lean ====
import proofs.«404706_j76201309766164_1_alg».proof.Proof.Gen.KernelIdeal.Launch
import Idealize.ShloMosaic.Lib.StableHlo.Run
import Idealize.ShloMosaic.Lib.Pipeline.Regions

set_option maxRecDepth 16384

noncomputable section

namespace Cert.KernelIdeal.Gen

open Idealize.ShloMosaic Idealize.ShloMosaic.TcCoe Idealize.SL.Sem Idealize.ShloMosaic.StableHlo Idealize.ShloMosaic.Pipeline
open Cert.KernelIdeal.Facts₀

variable {F : FTy → Type} [FloatOps F]

/-- The operations of `hostOps0_1` over the plain references (each typed reference is a literal one). -/
abbrev clipOpsA : List (HloOp τ sig (Elt F)) :=
  [ StableHlo.unary main_cst_2 main_call0_v0 (id : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.binary main_call0_v1 main_v3 main_v7 (maximumf : (⟨S100000, .f32⟩ : BufTy).Contents (Elt F) → (⟨S100000, .f32⟩ : BufTy).Contents (Elt F) → (⟨S100000, .f32⟩ : BufTy).Contents (Elt F)) ]

theorem hostOps0_1_plain : (hostOps0_1 (F := F)) = clipOpsA := by chain_rfl

/-- The operations of `hostOps0_3` over the plain references (each typed reference is a literal one). -/
abbrev clipOpsB : List (HloOp τ sig (Elt F)) :=
  [ StableHlo.unary main_cst_3 main_call1_v0 (id : (⟨S_, .f32⟩ : BufTy).Contents (Elt F) → (⟨S_, .f32⟩ : BufTy).Contents (Elt F)),
    StableHlo.unary main_call1_v0 main_call1_v1 ((broadcastInDim S100000 ![] bcast_S_S100000) : (⟨S_, .f32⟩ : BufTy).Contents (Elt F) → (⟨S100000, .f32⟩ : BufTy).Contents (Elt F)),
    StableHlo.binary main_call1_v1 main_v6 main_v9 (maximumf : (⟨S100000, .f32⟩ : BufTy).Contents (Elt F) → (⟨S100000, .f32⟩ : BufTy).Contents (Elt F) → (⟨S100000, .f32⟩ : BufTy).Contents (Elt F)) ]

theorem hostOps0_3_plain : (hostOps0_3 (F := F)) = clipOpsB := by chain_rfl

/-- The operations of `hostOps0_5` over the plain references (each typed reference is a literal one). -/
abbrev takeOps0 : List (HloOp τ sig (Elt F)) :=
  [ StableHlo.nullary main_call2_c ((constantI S_ 32 0#32) : (⟨S_, .i32⟩ : BufTy).Contents (Elt F)),
    StableHlo.unary main_call2_c main_call2_v0 ((broadcastInDim S1200000 ![] bcast_S_S1200000) : (⟨S_, .i32⟩ : BufTy).Contents (Elt F) → (⟨S1200000, .i32⟩ : BufTy).Contents (Elt F)),
    StableHlo.binary main_arg1 main_call2_v0 main_call2_v1 ((cmpi .slt) : (⟨S1200000, .i32⟩ : BufTy).Contents (Elt F) → (⟨S1200000, .i32⟩ : BufTy).Contents (Elt F) → (⟨S1200000, .i1⟩ : BufTy).Contents (Elt F)),
    StableHlo.nullary main_call2_c_0 ((constantI S_ 32 100000#32) : (⟨S_, .i32⟩ : BufTy).Contents (Elt F)),
    StableHlo.unary main_call2_c_0 main_call2_v2 ((broadcastInDim S1200000 ![] bcast_S_S1200000) : (⟨S_, .i32⟩ : BufTy).Contents (Elt F) → (⟨S1200000, .i32⟩ : BufTy).Contents (Elt F)),
    StableHlo.binary main_arg1 main_call2_v2 main_call2_v3 (addi : (⟨S1200000, .i32⟩ : BufTy).Contents (Elt F) → (⟨S1200000, .i32⟩ : BufTy).Contents (Elt F) → (⟨S1200000, .i32⟩ : BufTy).Contents (Elt F)),
    StableHlo.ternary main_call2_v1 main_call2_v3 main_arg1 main_call2_v4 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_call2_v4 main_call2_v5 ((broadcastInDim S1200000x1 ![0] bcast_S1200000_S1200000x1_0) : (⟨S1200000, .i32⟩ : BufTy).Contents (Elt F) → (⟨S1200000x1, .i32⟩ : BufTy).Contents (Elt F)),
    StableHlo.nullary main_call2_c_1 ((constantI S1 32 99999#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S1200000x1 ![] bcast_S_S1200000x1) : (⟨S_, .i32⟩ : BufTy).Contents (Elt F) → (⟨S1200000x1, .i32⟩ : BufTy).Contents (Elt F)),
    StableHlo.binary main_call2_v5 main_call2_v6 main_call2_v7 ((cmpi .sge) : (⟨S1200000x1, .i32⟩ : BufTy).Contents (Elt F) → (⟨S1200000x1, .i32⟩ : BufTy).Contents (Elt F) → (⟨S1200000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1200000x1 ![0, 1] bcast_S1x1_S1200000x1_0_1) : (⟨S1x1, .i32⟩ : BufTy).Contents (Elt F) → (⟨S1200000x1, .i32⟩ : BufTy).Contents (Elt F)),
    StableHlo.binary main_call2_v5 main_call2_v9 main_call2_v10 ((cmpi .sle) : (⟨S1200000x1, .i32⟩ : BufTy).Contents (Elt F) → (⟨S1200000x1, .i32⟩ : BufTy).Contents (Elt F) → (⟨S1200000x1, .i1⟩ : BufTy).Contents (Elt F)),
    StableHlo.binary main_call2_v7 main_call2_v10 main_call2_v11 (andi : (⟨S1200000x1, .i1⟩ : BufTy).Contents (Elt F) → (⟨S1200000x1, .i1⟩ : BufTy).Contents (Elt F) → (⟨S1200000x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S1200000x1_S1200000_d1 h_S_) : (⟨S1200000x1, .i1⟩ : BufTy).Contents (Elt F) → (⟨S_, .i1⟩ : BufTy).Contents (Elt F) → (⟨S1200000, .i1⟩ : BufTy).Contents (Elt F)),
    StableHlo.binary main_v13 main_call2_v5 main_call2_v13 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_call2_v12 main_call2_v14 ((broadcastInDim S1200000x64 ![0] bcast_S1200000_S1200000x64_0) : (⟨S1200000, .i1⟩ : BufTy).Contents (Elt F) → (⟨S1200000x64, .i1⟩ : BufTy).Contents (Elt F)),
    StableHlo.nullary main_call2_cst ((constant S_ .f32 0x7FC00000#32) : (⟨S_, .f32⟩ : BufTy).Contents (Elt F)),
    StableHlo.unary main_call2_cst main_call2_v15 ((broadcastInDim S1200000x64 ![] bcast_S_S1200000x64) : (⟨S_, .f32⟩ : BufTy).Contents (Elt F) → (⟨S1200000x64, .f32⟩ : BufTy).Contents (Elt F)),
    StableHlo.ternary main_call2_v14 main_call2_v13 main_call2_v15 main_v14 (select : (⟨S1200000x64, .i1⟩ : BufTy).Contents (Elt F) → (⟨S1200000x64, .f32⟩ : BufTy).Contents (Elt F) → (⟨S1200000x64, .f32⟩ : BufTy).Contents (Elt F) → (⟨S1200000x64, .f32⟩ : BufTy).Contents (Elt F)) ]

theorem hostOps0_5_plain : (hostOps0_5 (F := F)) = takeOps0 := by chain_rfl

/-- The operations of `hostOps1_1` over the plain references (each typed reference is a literal one). -/
abbrev takeOps1 : List (HloOp τ sig (Elt F)) :=
  [ StableHlo.nullary main_call3_c ((constantI S_ 32 0#32) : (⟨S_, .i32⟩ : BufTy).Contents (Elt F)),
    StableHlo.unary main_call3_c main_call3_v0 ((broadcastInDim S1200000 ![] bcast_S_S1200000) : (⟨S_, .i32⟩ : BufTy).Contents (Elt F) → (⟨S1200000, .i32⟩ : BufTy).Contents (Elt F)),
    StableHlo.binary main_arg1 main_call3_v0 main_call3_v1 ((cmpi .slt) : (⟨S1200000, .i32⟩ : BufTy).Contents (Elt F) → (⟨S1200000, .i32⟩ : BufTy).Contents (Elt F) → (⟨S1200000, .i1⟩ : BufTy).Contents (Elt F)),
    StableHlo.nullary main_call3_c_0 ((constantI S_ 32 100000#32) : (⟨S_, .i32⟩ : BufTy).Contents (Elt F)),
    StableHlo.unary main_call3_c_0 main_call3_v2 ((broadcastInDim S1200000 ![] bcast_S_S1200000) : (⟨S_, .i32⟩ : BufTy).Contents (Elt F) → (⟨S1200000, .i32⟩ : BufTy).Contents (Elt F)),
    StableHlo.binary main_arg1 main_call3_v2 main_call3_v3 (addi : (⟨S1200000, .i32⟩ : BufTy).Contents (Elt F) → (⟨S1200000, .i32⟩ : BufTy).Contents (Elt F) → (⟨S1200000, .i32⟩ : BufTy).Contents (Elt F)),
    StableHlo.ternary main_call3_v1 main_call3_v3 main_arg1 main_call3_v4 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_call3_v4 main_call3_v5 ((broadcastInDim S1200000x1 ![0] bcast_S1200000_S1200000x1_0) : (⟨S1200000, .i32⟩ : BufTy).Contents (Elt F) → (⟨S1200000x1, .i32⟩ : BufTy).Contents (Elt F)),
    StableHlo.nullary main_call3_c_1 ((constantI S1 32 99999#32) : (⟨S1, .i32⟩ : BufTy).Contents (Elt F)),
    StableHlo.nullary main_call3_c_2 ((constantI S_ 32 0#32) : (⟨S_, .i32⟩ : BufTy).Contents (Elt F)),
    StableHlo.unary main_call3_c_2 main_call3_v6 ((broadcastInDim S1200000x1 ![] bcast_S_S1200000x1) : (⟨S_, .i32⟩ : BufTy).Contents (Elt F) → (⟨S1200000x1, .i32⟩ : BufTy).Contents (Elt F)),
    StableHlo.binary main_call3_v5 main_call3_v6 main_call3_v7 ((cmpi .sge) : (⟨S1200000x1, .i32⟩ : BufTy).Contents (Elt F) → (⟨S1200000x1, .i32⟩ : BufTy).Contents (Elt F) → (⟨S1200000x1, .i1⟩ : BufTy).Contents (Elt F)),
    StableHlo.unary main_call3_c_1 main_call3_v8 ((broadcastInDim S1x1 ![1] bcast_S1_S1x1_1) : (⟨S1, .i32⟩ : BufTy).Contents (Elt F) → (⟨S1x1, .i32⟩ : BufTy).Contents (Elt F)),
    StableHlo.unary main_call3_v8 main_call3_v9 ((broadcastInDim S1200000x1 ![0, 1] bcast_S1x1_S1200000x1_0_1) : (⟨S1x1, .i32⟩ : BufTy).Contents (Elt F) → (⟨S1200000x1, .i32⟩ : BufTy).Contents (Elt F)),
    StableHlo.binary main_call3_v5 main_call3_v9 main_call3_v10 ((cmpi .sle) : (⟨S1200000x1, .i32⟩ : BufTy).Contents (Elt F) → (⟨S1200000x1, .i32⟩ : BufTy).Contents (Elt F) → (⟨S1200000x1, .i1⟩ : BufTy).Contents (Elt F)),
    StableHlo.binary main_call3_v7 main_call3_v10 main_call3_v11 (andi : (⟨S1200000x1, .i1⟩ : BufTy).Contents (Elt F) → (⟨S1200000x1, .i1⟩ : BufTy).Contents (Elt F) → (⟨S1200000x1, .i1⟩ : BufTy).Contents (Elt F)),
    StableHlo.nullary main_call3_c_3 ((constantI S_ 1 1#1) : (⟨S_, .i1⟩ : BufTy).Contents (Elt F)),
    StableHlo.binary main_call3_v11 main_call3_c_3 main_call3_v12 ((fun x v => Host.reduce IntOp.andi x v reducesTo_S1200000x1_S1200000_d1 h_S_) : (⟨S1200000x1, .i1⟩ : BufTy).Contents (Elt F) → (⟨S_, .i1⟩ : BufTy).Contents (Elt F) → (⟨S1200000, .i1⟩ : BufTy).Contents (Elt F)),
    StableHlo.binary main_v25 main_call3_v5 main_call3_v13 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_call3_v12 main_call3_v14 ((broadcastInDim S1200000x64 ![0] bcast_S1200000_S1200000x64_0) : (⟨S1200000, .i1⟩ : BufTy).Contents (Elt F) → (⟨S1200000x64, .i1⟩ : BufTy).Contents (Elt F)),
    StableHlo.nullary main_call3_cst ((constant S_ .f32 0x7FC00000#32) : (⟨S_, .f32⟩ : BufTy).Contents (Elt F)),
    StableHlo.unary main_call3_cst main_call3_v15 ((broadcastInDim S1200000x64 ![] bcast_S_S1200000x64) : (⟨S_, .f32⟩ : BufTy).Contents (Elt F) → (⟨S1200000x64, .f32⟩ : BufTy).Contents (Elt F)),
    StableHlo.ternary main_call3_v14 main_call3_v13 main_call3_v15 main_v26 (select : (⟨S1200000x64, .i1⟩ : BufTy).Contents (Elt F) → (⟨S1200000x64, .f32⟩ : BufTy).Contents (Elt F) → (⟨S1200000x64, .f32⟩ : BufTy).Contents (Elt F) → (⟨S1200000x64, .f32⟩ : BufTy).Contents (Elt F)) ]

theorem hostOps1_1_plain : (hostOps1_1 (F := F)) = takeOps1 := by chain_rfl

/-- The operations of `hostOps2_1` over the plain references (each typed reference is a literal one). -/
abbrev takeOps2 : List (HloOp τ sig (Elt F)) :=
  [ StableHlo.nullary main_call4_c ((constantI S_ 32 0#32) : (⟨S_, .i32⟩ : BufTy).Contents (Elt F)),
    StableHlo.unary main_call4_c main_call4_v0 ((broadcastInDim S1200000 ![] bcast_S_S1200000) : (⟨S_, .i32⟩ : BufTy).Contents (Elt F) → (⟨S1200000, .i32⟩ : BufTy).Contents (Elt F)),
    StableHlo.binary main_arg1 main_call4_v0 main_call4_v1 ((cmpi .slt) : (⟨S1200000, .i32⟩ : BufTy).Contents (Elt F) → (⟨S1200000, .i32⟩ : BufTy).Contents (Elt F) → (⟨S1200000, .i1⟩ : BufTy).Contents (Elt F)),
    StableHlo.nullary main_call4_c_0 ((constantI S_ 32 100000#32) : (⟨S_, .i32⟩ : BufTy).Contents (Elt F)),
    StableHlo.unary main_call4_c_0 main_call4_v2 ((broadcastInDim S1200000 ![] bcast_S_S1200000) : (⟨S_, .i32⟩ : BufTy).Contents (Elt F) → (⟨S1200000, .i32⟩ : BufTy).Contents (Elt F)),
    StableHlo.binary main_arg1 main_call4_v2 main_call4_v3 (addi : (⟨S1200000, .i32⟩ : BufTy).Contents (Elt F) → (⟨S1200000, .i32⟩ : BufTy).Contents (Elt F) → (⟨S1200000, .i32⟩ : BufTy).Contents (Elt F)),
    StableHlo.ternary main_call4_v1 main_call4_v3 main_arg1 main_call4_v4 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_call4_v4 main_call4_v5 ((broadcastInDim S1200000x1 ![0] bcast_S1200000_S1200000x1_0) : (⟨S1200000, .i32⟩ : BufTy).Contents (Elt F) → (⟨S1200000x1, .i32⟩ : BufTy).Contents (Elt F)),
    StableHlo.nullary main_call4_c_1 ((constantI S1 32 99999#32) : (⟨S1, .i32⟩ : BufTy).Contents (Elt F)),
    StableHlo.nullary main_call4_c_2 ((constantI S_ 32 0#32) : (⟨S_, .i32⟩ : BufTy).Contents (Elt F)),
    StableHlo.unary main_call4_c_2 main_call4_v6 ((broadcastInDim S1200000x1 ![] bcast_S_S1200000x1) : (⟨S_, .i32⟩ : BufTy).Contents (Elt F) → (⟨S1200000x1, .i32⟩ : BufTy).Contents (Elt F)),
    StableHlo.binary main_call4_v5 main_call4_v6 main_call4_v7 ((cmpi .sge) : (⟨S1200000x1, .i32⟩ : BufTy).Contents (Elt F) → (⟨S1200000x1, .i32⟩ : BufTy).Contents (Elt F) → (⟨S1200000x1, .i1⟩ : BufTy).Contents (Elt F)),
    StableHlo.unary main_call4_c_1 main_call4_v8 ((broadcastInDim S1x1 ![1] bcast_S1_S1x1_1) : (⟨S1, .i32⟩ : BufTy).Contents (Elt F) → (⟨S1x1, .i32⟩ : BufTy).Contents (Elt F)),
    StableHlo.unary main_call4_v8 main_call4_v9 ((broadcastInDim S1200000x1 ![0, 1] bcast_S1x1_S1200000x1_0_1) : (⟨S1x1, .i32⟩ : BufTy).Contents (Elt F) → (⟨S1200000x1, .i32⟩ : BufTy).Contents (Elt F)),
    StableHlo.binary main_call4_v5 main_call4_v9 main_call4_v10 ((cmpi .sle) : (⟨S1200000x1, .i32⟩ : BufTy).Contents (Elt F) → (⟨S1200000x1, .i32⟩ : BufTy).Contents (Elt F) → (⟨S1200000x1, .i1⟩ : BufTy).Contents (Elt F)),
    StableHlo.binary main_call4_v7 main_call4_v10 main_call4_v11 (andi : (⟨S1200000x1, .i1⟩ : BufTy).Contents (Elt F) → (⟨S1200000x1, .i1⟩ : BufTy).Contents (Elt F) → (⟨S1200000x1, .i1⟩ : BufTy).Contents (Elt F)),
    StableHlo.nullary main_call4_c_3 ((constantI S_ 1 1#1) : (⟨S_, .i1⟩ : BufTy).Contents (Elt F)),
    StableHlo.binary main_call4_v11 main_call4_c_3 main_call4_v12 ((fun x v => Host.reduce IntOp.andi x v reducesTo_S1200000x1_S1200000_d1 h_S_) : (⟨S1200000x1, .i1⟩ : BufTy).Contents (Elt F) → (⟨S_, .i1⟩ : BufTy).Contents (Elt F) → (⟨S1200000, .i1⟩ : BufTy).Contents (Elt F)),
    StableHlo.binary main_v37 main_call4_v5 main_call4_v13 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_call4_v12 main_call4_v14 ((broadcastInDim S1200000x64 ![0] bcast_S1200000_S1200000x64_0) : (⟨S1200000, .i1⟩ : BufTy).Contents (Elt F) → (⟨S1200000x64, .i1⟩ : BufTy).Contents (Elt F)),
    StableHlo.nullary main_call4_cst ((constant S_ .f32 0x7FC00000#32) : (⟨S_, .f32⟩ : BufTy).Contents (Elt F)),
    StableHlo.unary main_call4_cst main_call4_v15 ((broadcastInDim S1200000x64 ![] bcast_S_S1200000x64) : (⟨S_, .f32⟩ : BufTy).Contents (Elt F) → (⟨S1200000x64, .f32⟩ : BufTy).Contents (Elt F)),
    StableHlo.ternary main_call4_v14 main_call4_v13 main_call4_v15 main_v38 (select : (⟨S1200000x64, .i1⟩ : BufTy).Contents (Elt F) → (⟨S1200000x64, .f32⟩ : BufTy).Contents (Elt F) → (⟨S1200000x64, .f32⟩ : BufTy).Contents (Elt F) → (⟨S1200000x64, .f32⟩ : BufTy).Contents (Elt F)) ]

theorem hostOps2_1_plain : (hostOps2_1 (F := F)) = takeOps2 := by chain_rfl

end Cert.KernelIdeal.Gen

end
-- ==== Proof.Spec.lean ====
/-
  The graph convolution both programs compute, as functions of whole arrays at the ideal values.

  Notation: N = 100000 nodes, E = 1200000 edges, feature width 64; `src`, `dst` are the edge lists.
  * `degNorm idx` : for each node v, (max 1 (number of edges e with idx e = v))^(-1/2): the count is a
    scatter-add of ones into a zero vector, clipped below at 1, then the reciprocal square root.
  * `takeRows h idx` : row e is row `idx e` of h, a negative index first shifted up by N, and a row whose
    (shifted) index is outside [0, N-1] filled with the not-a-number word.
  * `aggregate x ns nd src dst` : D_dst^(-1/2) A D_src^(-1/2) x — scale row v of x by `ns v`, take the rows at
    `src`, add row e into row `dst e` of a zero matrix, scale row v of the sum by `nd v`.
  * `affine a w b` : a·w + b, entry (i, j) the sum over c of a(i,c)·w(c,j), plus b(0,j) (b a 1×64 row).
  * `reluLayer`, `sigmoidLayer` : max(·, 0), resp. 1/(1+e^(-·)), of `affine`, entry by entry.
  * `threshold h` : 1 where h ≥ 1/2, else 0.
  The network is three layers: relu, relu, sigmoid, and the thresholded copy of the last.
-/
import proofs.«404706_j76201309766164_1_alg».proof.Proof.Gen.KernelIdeal
import Idealize.ShloMosaic.PureOps.Ideal
import Idealize.ShloMosaic.Lib.ValueIdx

noncomputable section

namespace Cert.Spec

open Idealize.ShloMosaic Idealize.ShloMosaic.ValueIdx
open Cert.KernelIdeal Cert.KernelIdeal.Facts₀

section HostChain
variable {F : FTy → Type} [FloatOps F]

/-- (max 1 (in-count of each node))^(-1/2), the count taken over the index list `idx`. -/
def degNorm (idx : IVec S1200000 32) : FVec F S100000 .f32 :=
  Host.rsqrt (maximumf
    (broadcastInDim S100000 ![] bcast_S_S100000 (id (constant (F := F) S_ .f32 0x3F800000#32)))
    (Host.scatterAdd scatter_S100000_S1200000x1_S1200000_n_0_0_1
      (broadcastInDim S100000 ![] bcast_S_S100000 (constant (F := F) S_ .f32 0x00000000#32))
      (broadcastInDim S1200000x1 ![0] bcast_S1200000_S1200000x1_0 idx)
      (broadcastInDim S1200000 ![] bcast_S_S1200000 (constant (F := F) S_ .f32 0x3F800000#32))))

/-- The edge indices as `jnp.take` reads them: a negative one shifted up by N, as an E×1 column. -/
def wrapIdx (idx : IVec S1200000 32) : IVec S1200000x1 32 :=
  broadcastInDim S1200000x1 ![0] bcast_S1200000_S1200000x1_0
    (select (cmpi .slt idx (broadcastInDim S1200000 ![] bcast_S_S1200000 (constantI S_ 32 0#32)))
      (addi idx (broadcastInDim S1200000 ![] bcast_S_S1200000 (constantI S_ 32 100000#32))) idx)

/-- Which edges have their (shifted) index inside [0, N-1]. -/
def inRange (idx : IVec S1200000 32) : IVec S1200000 1 :=
  Host.reduce IntOp.andi
    (andi (cmpi .sge (wrapIdx idx) (broadcastInDim S1200000x1 ![] bcast_S_S1200000x1 (constantI S_ 32 0#32)))
      (cmpi .sle (wrapIdx idx) (broadcastInDim S1200000x1 ![0, 1] bcast_S1x1_S1200000x1_0_1
        (broadcastInDim S1x1 ![1] bcast_S1_S1x1_1 (constantI S1 32 99999#32)))))
    (constantI S_ 1 1#1) reducesTo_S1200000x1_S1200000_d1 h_S_

/-- Row e is row `idx e` of `h` (out-of-range rows filled with the not-a-number word). -/
def takeRows (h : FVec F S100000x64 .f32) (idx : IVec S1200000 32) : FVec F S1200000x64 .f32 :=
  select (broadcastInDim S1200000x64 ![0] bcast_S1200000_S1200000x64_0 (inRange idx))
    (Host.gather gather_S100000x64_S1200000x1_S1200000x64_1_0_n_n_0_1_164 h (wrapIdx idx))
    (broadcastInDim S1200000x64 ![] bcast_S_S1200000x64 (constant (F := F) S_ .f32 0x7FC00000#32))

/-- A per-node scalar as a matrix with that scalar along each row. -/
def rowScale (n : FVec F S100000 .f32) : FVec F S100000x64 .f32 :=
  broadcastInDim S100000x64 ![0, 1] bcast_S100000x1_S100000x64_0_1
    (broadcastInDim S100000x1 ![0] bcast_S100000_S100000x1_0 n)

/-- Normalised neighbourhood sum: scale by `ns`, take rows at `src`, add into rows `dst`, scale by `nd`. -/
def aggregate (x : FVec F S100000x64 .f32) (ns nd : FVec F S100000 .f32) (src dst : IVec S1200000 32) :
    FVec F S100000x64 .f32 :=
  mulf (Host.scatterAdd scatter_S100000x64_S1200000x1_S1200000x64_1_0_0_1
      (broadcastInDim S100000x64 ![] bcast_S_S100000x64 (constant (F := F) S_ .f32 0x00000000#32))
      (broadcastInDim S1200000x1 ![0] bcast_S1200000_S1200000x1_0 dst)
      (takeRows (mulf x (rowScale ns)) src))
    (rowScale nd)

/-- A bias vector as the 1×64 row the dense layers take. -/
def biasRow (b : FVec F S64 .f32) : FVec F S1x64 .f32 := shapeCast S1x64 b shapeCasts_S64_S1x64

end HostChain

/-- a·w + b: entry (i, j) is the sum over c of a(i,c)·w(c,j), plus b(0,j). -/
def affine (a : FVec Ideal S100000x64 .f32) (w : FVec Ideal S64x64 .f32) (b : FVec Ideal S1x64 .f32) :
    FVec Ideal S100000x64 .f32 :=
  fun i => (∑ c : Fin 64, a (ix2 (n0 := 100000) (n1 := 64) (i 0) c) * w (ix2 (n0 := 64) (n1 := 64) c (i 1)))
    + b (ix2 (n0 := 1) (n1 := 64) 0 (i 1))

theorem affine_apply (a : FVec Ideal S100000x64 .f32) (w : FVec Ideal S64x64 .f32) (b : FVec Ideal S1x64 .f32)
    (p : Fin 100000) (q : Fin 64) :
    affine a w b (ix2 p q) = (∑ c : Fin 64, a (ix2 p c) * w (ix2 c q)) + b (ix2 (0 : Fin 1) q) := rfl

/-- max(a·w + b, 0), entry by entry. -/
def reluLayer (a : FVec Ideal S100000x64 .f32) (w : FVec Ideal S64x64 .f32) (b : FVec Ideal S1x64 .f32) :
    FVec Ideal S100000x64 .f32 :=
  fun i => FloatOps.maximumf (affine a w b i) (FloatOps.ofBits (F := Ideal) .f32 0x00000000#32)

/-- 1/(1 + e^(-(a·w + b))), entry by entry. -/
def sigmoidLayer (a : FVec Ideal S100000x64 .f32) (w : FVec Ideal S64x64 .f32) (b : FVec Ideal S1x64 .f32) :
    FVec Ideal S100000x64 .f32 :=
  fun i => Ideal.logistic (affine a w b i)

/-- 1 where the entry is at least 1/2, else 0. -/
def threshold (h : FVec Ideal S100000x64 .f32) : FVec Ideal S100000x64 .f32 :=
  fun i => Scalar.select (FloatOps.cmpf .oge (h i) (FloatOps.ofBits (F := Ideal) .f32 0x3F000000#32))
    (FloatOps.ofBits (F := Ideal) .f32 0x3F800000#32) (FloatOps.ofBits (F := Ideal) .f32 0x00000000#32)

/-- The first result: three graph-convolution layers (relu, relu, sigmoid). -/
def net (x : FVec Ideal S100000x64 .f32) (src dst : IVec S1200000 32)
    (w1 : FVec Ideal S64x64 .f32) (b1 : FVec Ideal S64 .f32) (w2 : FVec Ideal S64x64 .f32) (b2 : FVec Ideal S64 .f32)
    (w3 : FVec Ideal S64x64 .f32) (b3 : FVec Ideal S64 .f32) : FVec Ideal S100000x64 .f32 :=
  sigmoidLayer (aggregate
      (reluLayer (aggregate
          (reluLayer (aggregate x (degNorm (F := Ideal) src) (degNorm (F := Ideal) dst) src dst) w1 (biasRow b1))
          (degNorm (F := Ideal) src) (degNorm (F := Ideal) dst) src dst) w2 (biasRow b2))
      (degNorm (F := Ideal) src) (degNorm (F := Ideal) dst) src dst) w3 (biasRow b3)

end Cert.Spec

end
-- ==== Proof.LibAfter.lean ====
/-
  Two general facts about straight lines of host operations.
  (1) The buffer contents after a concatenation of two operation lists are the contents after the second list run from
      the contents after the first.
  (2) A property that holds of every operation of every chunk holds of every operation of the chunks' concatenation.
-/
import Idealize.ShloMosaic.Lib.StableHlo.Run

noncomputable section

namespace Cert.Lib

open Idealize.ShloMosaic Idealize.ShloMosaic.StableHlo

/-- Running one list of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A property of every element of every chunk holds of every element of the concatenation. -/
theorem forall_flatten {α : Type} {P : α → Prop} (ls : List (List α)) (h : ls.Forall fun l => l.Forall P) : ls.flatten.Forall P :=
  List.forall_iff_forall_mem.mpr fun a ha => by
    obtain ⟨l, hl, hal⟩ := List.mem_flatten.mp ha
    exact List.forall_iff_forall_mem.mp (List.forall_iff_forall_mem.mp h l hl) a hal

end Cert.Lib

end
-- ==== Proof.KHost.lean ====
/-
  What the kernel program's host operations leave in the buffers, as functions of the contents they start from, in three
  groups: before the first dense layer (the two degree normalisers, the normalised neighbourhood sum of the input
  features, the first bias as a row), between the first and second and between the second and third (the neighbourhood sum
  of the previous layer's output under the same normalisers, the next bias as a row). Every other buffer a later step
  reads stays as it was.
-/
import proofs.«404706_j76201309766164_1_alg».proof.Proof.KPlain
import proofs.«404706_j76201309766164_1_alg».proof.Proof.Spec
import proofs.«404706_j76201309766164_1_alg».proof.Proof.LibAfter

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KernelIdeal.Facts₀

variable {F : FTy → Type} [FloatOps F]

/-! ## Before the first dense layer -/

/-- All host operations before the first dense layer, in order. -/
abbrev pre0 : List (HloOp τ sig (Elt F)) :=
  hostOps0 ++ (clipOpsA ++ (hostOps0_2 ++ (clipOpsB ++ (hostOps0_4 ++ (takeOps0 ++ hostOps0_6)))))

theorem pre0_fold (W : Valuation τ sig (Elt F)) :
    StableHlo.after hostOps0_6 (StableHlo.after hostOps0_5 (StableHlo.after hostOps0_4 (StableHlo.after hostOps0_3
      (StableHlo.after hostOps0_2 (StableHlo.after hostOps0_1 (StableHlo.after (hostOps0 (F := F)) W)))))) = StableHlo.after pre0 W := by
  rw [hostOps0_1_plain, hostOps0_3_plain, hostOps0_5_plain]
  simp only [pre0, Cert.Lib.after_append]

local macro "pre0_fold" : tactic => `(tactic|
  (simp only [pre0, hostOps0, clipOpsA, hostOps0_2, clipOpsB, hostOps0_4, takeOps0, hostOps0_6, List.cons_append, List.nil_append]
   after_results_simp
   all_goals rfl))

attribute [local irreducible] Host.gather Host.reduce Host.scatterAdd

theorem pre0_v8 (W : Valuation τ sig (Elt F)) :
    StableHlo.after (pre0 (F := F)) W (Proc.devRef .tc main_v8) = (Cert.Spec.degNorm (W (Proc.devRef .tc main_arg1)) : FVec F S100000 .f32) := by
  pre0_fold
theorem pre0_v10 (W : Valuation τ sig (Elt F)) :
    StableHlo.after (pre0 (F := F)) W (Proc.devRef .tc main_v10) = (Cert.Spec.degNorm (W (Proc.devRef .tc main_arg2)) : FVec F S100000 .f32) := by
  pre0_fold
theorem pre0_v20 (W : Valuation τ sig (Elt F)) :
    StableHlo.after (pre0 (F := F)) W (Proc.devRef .tc main_v20)
      = (Cert.Spec.aggregate (W (Proc.devRef .tc main_arg0)) (Cert.Spec.degNorm (W (Proc.devRef .tc main_arg1))) (Cert.Spec.degNorm (W (Proc.devRef .tc main_arg2)))
          (W (Proc.devRef .tc main_arg1)) (W (Proc.devRef .tc main_arg2)) : FVec F S100000x64 .f32) := by
  pre0_fold
theorem pre0_v21 (W : Valuation τ sig (Elt F)) :
    StableHlo.after (pre0 (F := F)) W (Proc.devRef .tc main_v21) = (Cert.Spec.biasRow (W (Proc.devRef .tc main_arg4)) : FVec F S1x64 .f32) := by
  pre0_fold
theorem pre0_keep_arg1 (W : Valuation τ sig (Elt F)) :
    StableHlo.after (pre0 (F := F)) W (Proc.devRef .tc main_arg1) = W (Proc.devRef .tc main_arg1) := by
  pre0_fold
theorem pre0_keep_arg2 (W : Valuation τ sig (Elt F)) :
    StableHlo.after (pre0 (F := F)) W (Proc.devRef .tc main_arg2) = W (Proc.devRef .tc main_arg2) := by
  pre0_fold
theorem pre0_keep_arg3 (W : Valuation τ sig (Elt F)) :
    StableHlo.after (pre0 (F := F)) W (Proc.devRef .tc main_arg3) = W (Proc.devRef .tc main_arg3) := by
  pre0_fold
theorem pre0_keep_arg5 (W : Valuation τ sig (Elt F)) :
    StableHlo.after (pre0 (F := F)) W (Proc.devRef .tc main_arg5) = W (Proc.devRef .tc main_arg5) := by
  pre0_fold
theorem pre0_keep_arg6 (W : Valuation τ sig (Elt F)) :
    StableHlo.after (pre0 (F := F)) W (Proc.devRef .tc main_arg6) = W (Proc.devRef .tc main_arg6) := by
  pre0_fold
theorem pre0_keep_arg7 (W : Valuation τ sig (Elt F)) :
    StableHlo.after (pre0 (F := F)) W (Proc.devRef .tc main_arg7) = W (Proc.devRef .tc main_arg7) := by
  pre0_fold
theorem pre0_keep_arg8 (W : Valuation τ sig (Elt F)) :
    StableHlo.after (pre0 (F := F)) W (Proc.devRef .tc main_arg8) = W (Proc.devRef .tc main_arg8) := by
  pre0_fold

/-! ## Between the first and the second dense layer -/

/-- The host operations between the first and the second dense layer, in order. -/
abbrev pre1 : List (HloOp τ sig (Elt F)) := hostOps1 ++ (takeOps1 ++ hostOps1_2)

theorem pre1_fold (W : Valuation τ sig (Elt F)) :
    StableHlo.after hostOps1_2 (StableHlo.after hostOps1_1 (StableHlo.after (hostOps1 (F := F)) W)) = StableHlo.after pre1 W := by
  rw [hostOps1_1_plain]
  simp only [pre1, Cert.Lib.after_append]

local macro "pre1_fold" : tactic => `(tactic|
  (simp only [pre1, hostOps1, takeOps1, hostOps1_2, List.cons_append, List.nil_append]
   after_results_simp
   all_goals rfl))

theorem pre1_v32 (W : Valuation τ sig (Elt F)) :
    StableHlo.after (pre1 (F := F)) W (Proc.devRef .tc main_v32)
      = (Cert.Spec.aggregate (W (Proc.devRef .tc main_v22)) (W (Proc.devRef .tc main_v8)) (W (Proc.devRef .tc main_v10)) (W (Proc.devRef .tc main_arg1)) (W (Proc.devRef .tc main_arg2)) : FVec F S100000x64 .f32) := by
  pre1_fold
theorem pre1_v33 (W : Valuation τ sig (Elt F)) :
    StableHlo.after (pre1 (F := F)) W (Proc.devRef .tc main_v33) = (Cert.Spec.biasRow (W (Proc.devRef .tc main_arg6)) : FVec F S1x64 .f32) := by
  pre1_fold
theorem pre1_keep_v8 (W : Valuation τ sig (Elt F)) :
    StableHlo.after (pre1 (F := F)) W (Proc.devRef .tc main_v8) = W (Proc.devRef .tc main_v8) := by
  pre1_fold
theorem pre1_keep_v10 (W : Valuation τ sig (Elt F)) :
    StableHlo.after (pre1 (F := F)) W (Proc.devRef .tc main_v10) = W (Proc.devRef .tc main_v10) := by
  pre1_fold
theorem pre1_keep_arg1 (W : Valuation τ sig (Elt F)) :
    StableHlo.after (pre1 (F := F)) W (Proc.devRef .tc main_arg1) = W (Proc.devRef .tc main_arg1) := by
  pre1_fold
theorem pre1_keep_arg2 (W : Valuation τ sig (Elt F)) :
    StableHlo.after (pre1 (F := F)) W (Proc.devRef .tc main_arg2) = W (Proc.devRef .tc main_arg2) := by
  pre1_fold
theorem pre1_keep_arg5 (W : Valuation τ sig (Elt F)) :
    StableHlo.after (pre1 (F := F)) W (Proc.devRef .tc main_arg5) = W (Proc.devRef .tc main_arg5) := by
  pre1_fold
theorem pre1_keep_arg7 (W : Valuation τ sig (Elt F)) :
    StableHlo.after (pre1 (F := F)) W (Proc.devRef .tc main_arg7) = W (Proc.devRef .tc main_arg7) := by
  pre1_fold
theorem pre1_keep_arg8 (W : Valuation τ sig (Elt F)) :
    StableHlo.after (pre1 (F := F)) W (Proc.devRef .tc main_arg8) = W (Proc.devRef .tc main_arg8) := by
  pre1_fold

/-! ## Between the second and the third dense layer -/

/-- The host operations between the second and the third dense layer, in order. -/
abbrev pre2 : List (HloOp τ sig (Elt F)) := hostOps2 ++ (takeOps2 ++ hostOps2_2)

theorem pre2_fold (W : Valuation τ sig (Elt F)) :
    StableHlo.after hostOps2_2 (StableHlo.after hostOps2_1 (StableHlo.after (hostOps2 (F := F)) W)) = StableHlo.after pre2 W := by
  rw [hostOps2_1_plain]
  simp only [pre2, Cert.Lib.after_append]

local macro "pre2_fold" : tactic => `(tactic|
  (simp only [pre2, hostOps2, takeOps2, hostOps2_2, List.cons_append, List.nil_append]
   after_results_simp
   all_goals rfl))

theorem pre2_v44 (W : Valuation τ sig (Elt F)) :
    StableHlo.after (pre2 (F := F)) W (Proc.devRef .tc main_v44)
      = (Cert.Spec.aggregate (W (Proc.devRef .tc main_v34)) (W (Proc.devRef .tc main_v8)) (W (Proc.devRef .tc main_v10)) (W (Proc.devRef .tc main_arg1)) (W (Proc.devRef .tc main_arg2)) : FVec F S100000x64 .f32) := by
  pre2_fold
theorem pre2_v45 (W : Valuation τ sig (Elt F)) :
    StableHlo.after (pre2 (F := F)) W (Proc.devRef .tc main_v45) = (Cert.Spec.biasRow (W (Proc.devRef .tc main_arg8)) : FVec F S1x64 .f32) := by
  pre2_fold
theorem pre2_keep_arg7 (W : Valuation τ sig (Elt F)) :
    StableHlo.after (pre2 (F := F)) W (Proc.devRef .tc main_arg7) = W (Proc.devRef .tc main_arg7) := by
  pre2_fold

end Cert.KernelIdeal.Host

end
-- ==== Proof.KPay.lean ====
/-
  The three kernel bodies' arithmetic, read at one entry of the 10000×64 output block, at the ideal values.
  x0 is the block of aggregated features (10000×64), x1 the weight matrix (64×64), x2 the bias row (1×64).
  Each body computes x0·x1 + x2 (the change of float format before the product is the identity at the ideal
  values, and the product into a zero accumulator is the plain sum over the contracted coordinate), then
  max(·, 0) for the two relu bodies, 1/(1+e^(-·)) for the third, and for its second output the comparison of
  that with 1/2.
-/
import proofs.«404706_j76201309766164_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

namespace Cert.KernelIdeal.Pay

open Idealize.ShloMosaic Idealize.ShloMosaic.ValueIdx
open Cert.KernelIdeal Cert.KernelIdeal.Gen

/-- The product of an m×k by a k×n matrix accumulated into the zero matrix, read at entry (a, b), is the sum over
    the contracted coordinate of the products of the entries: the accumulator contributes 0, and what is left is
    the same sum a plain matrix product has there. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine (Ideal.dotGeneral_apply (DotDims.plain m k n) prec .single A B (ix2 a b)).symm.trans ?_
  exact StackMember.dotGeneral_plain_apply prec A B a b

/-- x0·x1 + x2 at entry (p, q). -/
def lin (x0 : Vec Ideal S10000x64 .f32) (x1 : Vec Ideal S64x64 .f32) (x2 : Vec Ideal S1x64 .f32)
    (p : Fin 10000) (q : Fin 64) : EReal :=
  (∑ c : Fin 64, x0 (ix2 p c) * x1 (ix2 c q)) + x2 (ix2 (0 : Fin 1) q)

/-- The linear part the three bodies share, read at entry (p, q): the casts to the same shape and the changes of
    float format are identities, the one bias row is repeated down the 10000 rows, and the contraction is the
    plain 10000×64 by 64×64 product (the dimension record of the bodies has exactly that product's fields). -/
theorem lin_apply (x0 : Vec Ideal S10000x64 .f32) (x1 : Vec Ideal S64x64 .f32) (x2 : Vec Ideal S1x64 .f32)
    (p : Fin 10000) (q : Fin 64) :
    addf (matmul dot_S10000x64_S64x64_S10000x64_1_0_0_1_n_n none
            (truncf .bf16 (shapeCast S10000x64 x0 shapeCasts_S10000x64_S10000x64) bitsLt_bf16_f32)
            (truncf .bf16 x1 bitsLt_bf16_f32) (constant (F := Ideal) S10000x64 .f32 0x00000000#32))
          (broadcastTo S10000x64 (shapeCast S1x64 x2 shapeCasts_S1x64_S1x64) broadcasts_S1x64_S10000x64) (ix2 p q)
      = lin x0 x1 x2 p q := by
  rw [addf_apply, broadcastTo_1b_ab_apply, shapeCast_self, shapeCast_self]
  have hm := matmul_plain_zero_apply (m := 10000) (k := 64) (n := 64) none
    (truncf .bf16 x0 bitsLt_bf16_f32) (truncf .bf16 x1 bitsLt_bf16_f32) p q
  exact congrArg (· + x2 (ix2 (0 : Fin 1) q)) hm

theorem relu0_apply (x0 : Vec Ideal S10000x64 .f32) (x1 : Vec Ideal S64x64 .f32) (x2 : Vec Ideal S1x64 .f32)
    (p : Fin 10000) (q : Fin 64) :
    k0_pay1 (F := Ideal) x0 x1 x2 (ix2 p q)
      = FloatOps.maximumf (F := Ideal) (φ := .f32) (lin x0 x1 x2 p q) (FloatOps.ofBits (F := Ideal) .f32 0x00000000#32) := by
  unfold k0_pay1
  rw [maximumf_apply, lin_apply, broadcast_apply]
  rfl

theorem relu1_apply (x0 : Vec Ideal S10000x64 .f32) (x1 : Vec Ideal S64x64 .f32) (x2 : Vec Ideal S1x64 .f32)
    (p : Fin 10000) (q : Fin 64) :
    k1_pay1 (F := Ideal) x0 x1 x2 (ix2 p q)
      = FloatOps.maximumf (F := Ideal) (φ := .f32) (lin x0 x1 x2 p q) (FloatOps.ofBits (F := Ideal) .f32 0x00000000#32) := by
  unfold k1_pay1
  rw [maximumf_apply, lin_apply, broadcast_apply]
  rfl

theorem sigmoid_apply (x0 : Vec Ideal S10000x64 .f32) (x1 : Vec Ideal S64x64 .f32) (x2 : Vec Ideal S1x64 .f32)
    (p : Fin 10000) (q : Fin 64) :
    k2_pay1 (F := Ideal) x0 x1 x2 (ix2 p q) = Ideal.logistic (lin x0 x1 x2 p q) := by
  unfold k2_pay1
  show FloatOps.logistic (F := Ideal) (φ := .f32) _ = _
  rw [lin_apply]
  rfl

theorem threshold_apply (x0 : Vec Ideal S10000x64 .f32) (x1 : Vec Ideal S64x64 .f32) (x2 : Vec Ideal S1x64 .f32)
    (p : Fin 10000) (q : Fin 64) :
    k2_pay2 (F := Ideal) x0 x1 x2 (ix2 p q)
      = Scalar.select (FloatOps.cmpf (F := Ideal) (φ := .f32) .oge (Ideal.logistic (lin x0 x1 x2 p q)) (FloatOps.ofBits (F := Ideal) .f32 0x3F000000#32))
          (FloatOps.ofBits (F := Ideal) .f32 0x3F800000#32) (FloatOps.ofBits (F := Ideal) .f32 0x00000000#32) := by
  unfold k2_pay2
  rw [select_apply, cmpf_apply, sigmoid_apply, broadcast_apply, broadcast_apply, broadcast_apply]

end Cert.KernelIdeal.Pay

end
-- ==== Proof.KReg0.lean ====
/-
  Region 0 (the first dense layer) read as one whole-array function of what the region finds on entry.

  The region walks ten grid points t = 0..9. At point t it stages rows 10000·t .. 10000·t + 9999 of the
  100000×64 input (block (t, 0)), the whole 64×64 weight and the whole 1×64 bias row (block (0, 0) of each),
  and writes back block (t, 0) of the output. The body's result at entry (p, q) of its block is
  max((∑ k, x0(p,k)·x1(k,q)) + x2(0,q), 0). Row p of block t is row 10000·t + p of the array, so what point t
  writes back is block t of the whole-array function `Spec.reluLayer` of the three entry arrays; the ten row
  blocks cover the array (row r lies in block r / 10000), hence the output array ends holding that function.
-/
import proofs.«404706_j76201309766164_1_alg».proof.Proof.Gen.KernelIdeal.Frame
import proofs.«404706_j76201309766164_1_alg».proof.Proof.KPay
import proofs.«404706_j76201309766164_1_alg».proof.Proof.Spec
import Idealize.ShloMosaic.Lib.Pipeline.Value
import Idealize.ShloMosaic.Lib.ValueIdx

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero2 : (![0, 0] : Fin 2 → Nat) = fun _ => 0 := funext fun a => by fin_cases a <;> rfl

/-- The block index of each window at grid point t: the input and the output move down the rows with t
    (block (t, 0)); the weight and the bias stay at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry. If row p of the input block is row (i 0) of the array A, column q of the weight block is column
    (i 1) of W, and entry (0, q) of the bias block is entry (0, i 1) of B, then the body's result at (p, q) is
    max((A·W + B)(i), 0). -/
theorem entry_eq (A : FVec Ideal S100000x64 .f32) (W : FVec Ideal S64x64 .f32) (B : FVec Ideal S1x64 .f32)
    (x0 : Vec Ideal S10000x64 .f32) (x1 : Vec Ideal S64x64 .f32) (x2 : Vec Ideal S1x64 .f32)
    (i : S100000x64.Idx) (p : Fin 10000) (q : Fin 64)
    (h0 : ∀ k : Fin 64, x0 (ix2 p k) = A (ix2 (i 0) k))
    (h1 : ∀ k : Fin 64, x1 (ix2 k q) = W (ix2 k (i 1)))
    (h2 : x2 (ix2 (0 : Fin 1) q) = B (ix2 (0 : Fin 1) (i 1))) :
    k0_pay1 (F := Ideal) x0 x1 x2 (ix2 p q) = Cert.Spec.reluLayer A W B i := by
  rw [Pay.relu0_apply]
  unfold Cert.Spec.reluLayer Cert.Spec.affine Pay.lin
  simp only [h0, h1, h2]

/-- What grid point t writes back is block t of max(A·W + B, 0), A, W, B the three arrays as the region finds
    them. A block's coordinate on an axis is (block index) × (block size) + 1 × (coordinate inside the block):
    the input block's row p and the output block's row p are the same array row 10000·t + p, and the columns of
    the weight and of the bias are the output's columns. -/
theorem flushed_eq (c : Dev nD) (t : Fin cfg0.N) :
    (Gen.dat0 (F := Ideal) V c).flushed 3 t
      = ((cfg0.win 3).blk t).view.read (Elt Ideal)
          (Cert.Spec.reluLayer (V c main_v20) (V c main_arg3) (V c main_v21)) := by
  show (cfg0.win 3).cut (grid0.coords t) ((Gen.dat0 V c).after 3 t) = _
  rw [Gen.after0_3]
  unfold Gen.out0_3
  rw [View.canon_unit_zero zero2]
  simp only [View.ld_unit_zero (S := S10000x64) zero2, View.ld_unit_zero (S := S64x64) zero2,
    View.ld_unit_zero (S := S1x64) zero2]
  refine funext fun (j : S10000x64.Idx) => ?_
  obtain ⟨p, q, rfl⟩ : ∃ (p : Fin 10000) (q : Fin 64), j = ix2 p q := ⟨j 0, j 1, eq_ix2 j⟩
  show k0_pay1 (F := Ideal) (Gen.iblk0 V c 0 t) (Gen.iblk0 V c 1 t) (Gen.iblk0 V c 2 t) (ix2 p q)
     = Cert.Spec.reluLayer (V c main_v20) (V c main_arg3) (V c main_v21)
        (((cfg0.win 3).blk t).view.emb (ix2 p q))
  obtain ⟨e00, e01, e10, e11, e20, e21, e30, e31⟩ := index_maps t
  refine entry_eq _ _ _ _ _ _ _ p q (fun k => ?_) (fun k => ?_) ?_
  · -- input block, entry (p, k): array entry (10000·t + p, k)
    show V c main_v20 (((cfg0.win 0).blk t).view.emb (ix2 p k)) = V c main_v20 _
    refine congrArg (V c main_v20) (funext fun a => Fin.ext ?_)
    match a with
    | ⟨0, _⟩ =>
      show win0_0.index t (0 : Fin 2) * 10000 + 1 * p.val = win0_3.index t (0 : Fin 2) * 10000 + 1 * p.val
      rw [e00, e30]
    | ⟨1, _⟩ =>
      show win0_0.index t (1 : Fin 2) * 64 + 1 * k.val = k.val
      rw [e01]; omega
  · -- weight block, entry (k, q): array entry (k, q)
    show V c main_arg3 (((cfg0.win 1).blk t).view.emb (ix2 k q)) = V c main_arg3 _
    refine congrArg (V c main_arg3) (funext fun a => Fin.ext ?_)
    match a with
    | ⟨0, _⟩ =>
      show win0_1.index t (0 : Fin 2) * 64 + 1 * k.val = k.val
      rw [e10]; omega
    | ⟨1, _⟩ =>
      show win0_1.index t (1 : Fin 2) * 64 + 1 * q.val = win0_3.index t (1 : Fin 2) * 64 + 1 * q.val
      rw [e11, e31]
  · -- bias block, entry (0, q): array entry (0, q)
    show V c main_v21 (((cfg0.win 2).blk t).view.emb (ix2 (0 : Fin 1) q)) = V c main_v21 _
    refine congrArg (V c main_v21) (funext fun a => Fin.ext ?_)
    match a with
    | ⟨0, _⟩ =>
      show win0_2.index t (0 : Fin 2) * 1 + 1 * (0 : Fin 1).val = (0 : Fin 1).val
      rw [e20]; rfl
    | ⟨1, _⟩ =>
      show win0_2.index t (1 : Fin 2) * 64 + 1 * q.val = win0_3.index t (1 : Fin 2) * 64 + 1 * q.val
      rw [e21, e31]

/-- An index of the output array is in point t's block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v22).slice (win0_3.rect t)).set ↔ _
  rw [View.set_slice_whole, Rect.mem_set_unit]
  exact Iff.rfl

/-- The ten row blocks cover the array: row r lies in block r / 10000, and every column in the block's 64. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := Gen.N_0
  have ht : (i 0).val / 10000 < grid0.N := by rw [hN]; omega
  obtain ⟨-, -, -, -, -, -, e30, e31⟩ := index_maps ⟨(i 0).val / 10000, ht⟩
  have e30' : win0_3.index ⟨(i 0).val / 10000, ht⟩ (0 : Fin 2) = (i 0).val / 10000 := e30
  refine ⟨⟨(i 0).val / 10000, ht⟩, Gen.flush0_3 _, ?_⟩
  rw [mem_block]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30']; omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e31]; omega

/-- THE OUTPUT ARRAY after region 0 is max(A·W + B, 0) of the three arrays the region finds on entry. -/
theorem out_array (c : Dev nD) :
    (Gen.dat0 (F := Ideal) V c).arrAt 3 cfg0.N
      = Cert.Spec.reluLayer (V c main_v20) (V c main_arg3) (V c main_v21) :=
  (Gen.dat0 (F := Ideal) V c).arrAt_eq_of_cover 3 _ (fun t _ => flushed_eq V c t) cover

end Cert.KernelIdeal.Reg0

end
-- ==== Proof.KReg1.lean ====
/-
  Region 1 (the second dense layer) read as one whole-array function of what the region finds on entry.

  The region walks ten grid points t = 0..9. At point t it stages rows 10000·t .. 10000·t + 9999 of the
  100000×64 input (block (t, 0)), the whole 64×64 weight and the whole 1×64 bias row (block (0, 0) of each),
  and writes back block (t, 0) of the output. The body's result at entry (p, q) of its block is
  max((∑ k, x0(p,k)·x1(k,q)) + x2(0,q), 0). Row p of block t is row 10000·t + p of the array, so what point t
  writes back is block t of the whole-array function `Spec.reluLayer` of the three entry arrays; the ten row
  blocks cover the array (row r lies in block r / 10000), hence the output array ends holding that function.
-/
import proofs.«404706_j76201309766164_1_alg».proof.Proof.Gen.KernelIdeal.Frame
import proofs.«404706_j76201309766164_1_alg».proof.Proof.KPay
import proofs.«404706_j76201309766164_1_alg».proof.Proof.Spec
import Idealize.ShloMosaic.Lib.Pipeline.Value
import Idealize.ShloMosaic.Lib.ValueIdx

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero2 : (![0, 0] : Fin 2 → Nat) = fun _ => 0 := funext fun a => by fin_cases a <;> rfl

/-- The block index of each window at grid point t: the input and the output move down the rows with t
    (block (t, 0)); the weight and the bias stay at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry. If row p of the input block is row (i 0) of the array A, column q of the weight block is column
    (i 1) of W, and entry (0, q) of the bias block is entry (0, i 1) of B, then the body's result at (p, q) is
    max((A·W + B)(i), 0). -/
theorem entry_eq (A : FVec Ideal S100000x64 .f32) (W : FVec Ideal S64x64 .f32) (B : FVec Ideal S1x64 .f32)
    (x0 : Vec Ideal S10000x64 .f32) (x1 : Vec Ideal S64x64 .f32) (x2 : Vec Ideal S1x64 .f32)
    (i : S100000x64.Idx) (p : Fin 10000) (q : Fin 64)
    (h0 : ∀ k : Fin 64, x0 (ix2 p k) = A (ix2 (i 0) k))
    (h1 : ∀ k : Fin 64, x1 (ix2 k q) = W (ix2 k (i 1)))
    (h2 : x2 (ix2 (0 : Fin 1) q) = B (ix2 (0 : Fin 1) (i 1))) :
    k1_pay1 (F := Ideal) x0 x1 x2 (ix2 p q) = Cert.Spec.reluLayer A W B i := by
  rw [Pay.relu1_apply]
  unfold Cert.Spec.reluLayer Cert.Spec.affine Pay.lin
  simp only [h0, h1, h2]

/-- What grid point t writes back is block t of max(A·W + B, 0), A, W, B the three arrays as the region finds
    them. A block's coordinate on an axis is (block index) × (block size) + 1 × (coordinate inside the block):
    the input block's row p and the output block's row p are the same array row 10000·t + p, and the columns of
    the weight and of the bias are the output's columns. -/
theorem flushed_eq (c : Dev nD) (t : Fin cfg1.N) :
    (Gen.dat1 (F := Ideal) V c).flushed 3 t
      = ((cfg1.win 3).blk t).view.read (Elt Ideal)
          (Cert.Spec.reluLayer (V c main_v32) (V c main_arg5) (V c main_v33)) := by
  show (cfg1.win 3).cut (grid1.coords t) ((Gen.dat1 V c).after 3 t) = _
  rw [Gen.after1_3]
  unfold Gen.out1_3
  rw [View.canon_unit_zero zero2]
  simp only [View.ld_unit_zero (S := S10000x64) zero2, View.ld_unit_zero (S := S64x64) zero2,
    View.ld_unit_zero (S := S1x64) zero2]
  refine funext fun (j : S10000x64.Idx) => ?_
  obtain ⟨p, q, rfl⟩ : ∃ (p : Fin 10000) (q : Fin 64), j = ix2 p q := ⟨j 0, j 1, eq_ix2 j⟩
  show k1_pay1 (F := Ideal) (Gen.iblk1 V c 0 t) (Gen.iblk1 V c 1 t) (Gen.iblk1 V c 2 t) (ix2 p q)
     = Cert.Spec.reluLayer (V c main_v32) (V c main_arg5) (V c main_v33)
        (((cfg1.win 3).blk t).view.emb (ix2 p q))
  obtain ⟨e00, e01, e10, e11, e20, e21, e30, e31⟩ := index_maps t
  refine entry_eq _ _ _ _ _ _ _ p q (fun k => ?_) (fun k => ?_) ?_
  · -- input block, entry (p, k): array entry (10000·t + p, k)
    show V c main_v32 (((cfg1.win 0).blk t).view.emb (ix2 p k)) = V c main_v32 _
    refine congrArg (V c main_v32) (funext fun a => Fin.ext ?_)
    match a with
    | ⟨0, _⟩ =>
      show win1_0.index t (0 : Fin 2) * 10000 + 1 * p.val = win1_3.index t (0 : Fin 2) * 10000 + 1 * p.val
      rw [e00, e30]
    | ⟨1, _⟩ =>
      show win1_0.index t (1 : Fin 2) * 64 + 1 * k.val = k.val
      rw [e01]; omega
  · -- weight block, entry (k, q): array entry (k, q)
    show V c main_arg5 (((cfg1.win 1).blk t).view.emb (ix2 k q)) = V c main_arg5 _
    refine congrArg (V c main_arg5) (funext fun a => Fin.ext ?_)
    match a with
    | ⟨0, _⟩ =>
      show win1_1.index t (0 : Fin 2) * 64 + 1 * k.val = k.val
      rw [e10]; omega
    | ⟨1, _⟩ =>
      show win1_1.index t (1 : Fin 2) * 64 + 1 * q.val = win1_3.index t (1 : Fin 2) * 64 + 1 * q.val
      rw [e11, e31]
  · -- bias block, entry (0, q): array entry (0, q)
    show V c main_v33 (((cfg1.win 2).blk t).view.emb (ix2 (0 : Fin 1) q)) = V c main_v33 _
    refine congrArg (V c main_v33) (funext fun a => Fin.ext ?_)
    match a with
    | ⟨0, _⟩ =>
      show win1_2.index t (0 : Fin 2) * 1 + 1 * (0 : Fin 1).val = (0 : Fin 1).val
      rw [e20]; rfl
    | ⟨1, _⟩ =>
      show win1_2.index t (1 : Fin 2) * 64 + 1 * q.val = win1_3.index t (1 : Fin 2) * 64 + 1 * q.val
      rw [e21, e31]

/-- An index of the output array is in point t's block iff each coordinate is in the block's range on its axis. -/
theorem mem_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v34).slice (win1_3.rect t)).set ↔ _
  rw [View.set_slice_whole, Rect.mem_set_unit]
  exact Iff.rfl

/-- The ten row blocks cover the array: row r lies in block r / 10000, and every column in the block's 64. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := Gen.N_1
  have ht : (i 0).val / 10000 < grid1.N := by rw [hN]; omega
  obtain ⟨-, -, -, -, -, -, e30, e31⟩ := index_maps ⟨(i 0).val / 10000, ht⟩
  have e30' : win1_3.index ⟨(i 0).val / 10000, ht⟩ (0 : Fin 2) = (i 0).val / 10000 := e30
  refine ⟨⟨(i 0).val / 10000, ht⟩, Gen.flush1_3 _, ?_⟩
  rw [mem_block]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e30']; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e31]; omega

/-- THE OUTPUT ARRAY after region 1 is max(A·W + B, 0) of the three arrays the region finds on entry. -/
theorem out_array (c : Dev nD) :
    (Gen.dat1 (F := Ideal) V c).arrAt 3 cfg1.N
      = Cert.Spec.reluLayer (V c main_v32) (V c main_arg5) (V c main_v33) :=
  (Gen.dat1 (F := Ideal) V c).arrAt_eq_of_cover 3 _ (fun t _ => flushed_eq V c t) cover

end Cert.KernelIdeal.Reg1

end
-- ==== Proof.KReg2.lean ====
/-
  Region 2 (the sigmoid layer and its threshold), from blocks to whole arrays, at the ideal values.

  The region walks ten points t = 0 … 9. At point t it reads rows t·10000 … t·10000 + 9999 of the 100000×64
  features array (block (t, 0) of 10000×64 blocks), the whole 64×64 weight matrix and the whole 1×64 bias row, and
  writes block (t, 0) of each of its two 100000×64 output arrays: into the first the body's first result, into the
  second its second result. Entry (p, q) of the first result is 1/(1+e^(-(x·w + b)(p, q))) and of the second the
  comparison of that with 1/2; with row p of the block being row t·10000 + p of the array, these are the entries
  (t·10000 + p, q) of the sigmoid layer, resp. of its threshold, of the three arrays as the region finds them.
  So what each point writes back is its block of one whole-array function, and since row r lies in the block of
  point r / 10000 the ten blocks cover each output array: after the region the first output array is the sigmoid
  layer of the entry contents and the second its threshold.
-/
import proofs.«404706_j76201309766164_1_alg».proof.Proof.Gen.KernelIdeal.Frame
import proofs.«404706_j76201309766164_1_alg».proof.Proof.KPay
import proofs.«404706_j76201309766164_1_alg».proof.Proof.Spec
import Idealize.ShloMosaic.Lib.Pipeline.Value

set_option maxRecDepth 16384

noncomputable section

namespace Cert.KernelIdeal.Reg2

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The origin of a rank-2 block, as the constant zero function. -/
theorem origin_zero : (![0, 0] : Fin 2 → Nat) = fun _ => 0 := funext fun a => by fin_cases a <;> rfl

/-- The block index of every window at every point: the features and both outputs are at block (t, 0), the weight
    matrix and the bias row at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of the features block at point t is row t·10000 + p of the features array. -/
theorem feat_block_apply (c : Dev nD) (t : Fin cfg2.N) (x : S10000x64.Idx) (k : S100000x64.Idx)
    (hk0 : (k 0).val = t.val * 10000 + (x 0).val) (hk1 : (k 1).val = (x 1).val) :
    (Gen.iblk2 V c 0 t : Vec Ideal S10000x64 .f32) x = (V c main_v44 : S100000x64.Idx → Elt Ideal .f32) k := by
  obtain ⟨e0, e1, -⟩ := block_indices t
  unfold Gen.iblk2
  rw [View.read_apply]
  show V c main_v44 _ = V c main_v44 _
  congr 1
  funext a
  apply Fin.ext
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- The weight block at every point is the whole weight matrix. -/
theorem weight_block_eq (c : Dev nD) (t : Fin cfg2.N) :
    (Gen.iblk2 V c 1 t : Vec Ideal S64x64 .f32) = (V c main_arg7 : S64x64.Idx → Elt Ideal .f32) := by
  obtain ⟨-, -, e0, e1, -⟩ := block_indices t
  funext x
  unfold Gen.iblk2
  rw [View.read_apply]
  show V c main_arg7 _ = V c main_arg7 _
  congr 1
  funext a
  apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- The bias block at every point is the whole bias row. -/
theorem bias_block_eq (c : Dev nD) (t : Fin cfg2.N) :
    (Gen.iblk2 V c 2 t : Vec Ideal S1x64 .f32) = (V c main_v45 : S1x64.Idx → Elt Ideal .f32) := by
  obtain ⟨-, -, -, -, e0, e1, -⟩ := block_indices t
  funext x
  unfold Gen.iblk2
  rw [View.read_apply]
  show V c main_v45 _ = V c main_v45 _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- The first payload at entry (p, q) of a block whose row p is row P of the features array: the sigmoid layer at (P, q). -/
theorem sigmoid_point (a : FVec Ideal S100000x64 .f32) (w : FVec Ideal S64x64 .f32) (b : FVec Ideal S1x64 .f32)
    (x0 : Vec Ideal S10000x64 .f32) (x1 : Vec Ideal S64x64 .f32) (x2 : Vec Ideal S1x64 .f32)
    (P : Fin 100000) (p : Fin 10000) (q : Fin 64)
    (h0 : ∀ c : Fin 64, x0 (ix2 p c) = a (ix2 P c)) (h1 : x1 = w) (h2 : x2 = b) :
    k2_pay1 (F := Ideal) x0 x1 x2 (ix2 p q) = Cert.Spec.sigmoidLayer a w b (ix2 P q) := by
  subst h1 h2
  rw [Pay.sigmoid_apply]
  show Ideal.logistic _ = Ideal.logistic (Cert.Spec.affine a x1 x2 (ix2 P q))
  rw [Cert.Spec.affine_apply]
  unfold Pay.lin
  simp only [h0]

/-- The second payload at entry (p, q): the threshold of the sigmoid layer at (P, q). -/
theorem threshold_point (a : FVec Ideal S100000x64 .f32) (w : FVec Ideal S64x64 .f32) (b : FVec Ideal S1x64 .f32)
    (x0 : Vec Ideal S10000x64 .f32) (x1 : Vec Ideal S64x64 .f32) (x2 : Vec Ideal S1x64 .f32)
    (P : Fin 100000) (p : Fin 10000) (q : Fin 64)
    (h0 : ∀ c : Fin 64, x0 (ix2 p c) = a (ix2 P c)) (h1 : x1 = w) (h2 : x2 = b) :
    k2_pay2 (F := Ideal) x0 x1 x2 (ix2 p q) = Cert.Spec.threshold (Cert.Spec.sigmoidLayer a w b) (ix2 P q) := by
  subst h1 h2
  rw [Pay.threshold_apply]
  show _ = Scalar.select (FloatOps.cmpf (F := Ideal) (φ := .f32) .oge (Ideal.logistic (Cert.Spec.affine a x1 x2 (ix2 P q))) _) _ _
  rw [Cert.Spec.affine_apply]
  unfold Pay.lin
  simp only [h0]

/-- Two functions on the 10000×64 block agree if they agree at every (p, q). -/
theorem block_ext {f g : S10000x64.Idx → Elt Ideal .f32} (h : ∀ (p : Fin 10000) (q : Fin 64), f (ix2 p q) = g (ix2 p q)) : f = g :=
  funext fun j => by rw [eq_ix2 j]; exact h _ _

/-- What point t writes back into the first output is block t of the sigmoid layer of the entry contents. -/
theorem sigmoid_written (c : Dev nD) (t : Fin cfg2.N) :
    (Gen.dat2 (F := Ideal) V c).flushed 3 t
      = ((cfg2.win 3).blk t).view.read (Elt Ideal)
          (Cert.Spec.sigmoidLayer (V c main_v44) (V c main_arg7) (V c main_v45)) := by
  show (cfg2.win 3).cut (grid2.coords t) ((Gen.dat2 (F := Ideal) V c).after 3 t) = _
  rw [Gen.after2_3]
  unfold Gen.out2_3
  rw [View.canon_unit_zero origin_zero]
  simp only [View.ld_unit_zero (S := S10000x64) origin_zero, View.ld_unit_zero (S := S64x64) origin_zero, View.ld_unit_zero (S := S1x64) origin_zero]
  refine block_ext fun p q => ?_
  obtain ⟨-, -, -, -, -, -, e0, e1, -⟩ := block_indices t
  have hN : grid2.N = 10 := Gen.N_2
  have ht : t.val < 10 := hN ▸ t.isLt
  show k2_pay1 (F := Ideal) (Gen.iblk2 V c 0 t) (Gen.iblk2 V c 1 t) (Gen.iblk2 V c 2 t) (ix2 p q)
     = Cert.Spec.sigmoidLayer (V c main_v44) (V c main_arg7) (V c main_v45) (((cfg2.win 3).blk t).view.emb (ix2 p q))
  have hk : ((cfg2.win 3).blk t).view.emb (ix2 p q)
      = (ix2 (⟨t.val * 10000 + p.val, by have := p.isLt; omega⟩ : Fin 100000) q : S100000x64.Idx) := by
    funext a
    apply Fin.ext
    match a with
    | ⟨0, _⟩ => show win2_3.index t 0 * 10000 + 1 * p.val = t.val * 10000 + p.val; rw [e0]; omega
    | ⟨1, _⟩ => show win2_3.index t 1 * 64 + 1 * q.val = q.val; rw [e1]; omega
  rw [hk]
  exact sigmoid_point (V c main_v44) (V c main_arg7) (V c main_v45) (Gen.iblk2 V c 0 t) (Gen.iblk2 V c 1 t) (Gen.iblk2 V c 2 t)
    _ p q (fun k => feat_block_apply V c t (ix2 p k) (ix2 _ k) rfl rfl) (weight_block_eq V c t) (bias_block_eq V c t)

/-- What point t writes back into the second output is block t of the threshold of that sigmoid layer. -/
theorem threshold_written (c : Dev nD) (t : Fin cfg2.N) :
    (Gen.dat2 (F := Ideal) V c).flushed 4 t
      = ((cfg2.win 4).blk t).view.read (Elt Ideal)
          (Cert.Spec.threshold (Cert.Spec.sigmoidLayer (V c main_v44) (V c main_arg7) (V c main_v45))) := by
  show (cfg2.win 4).cut (grid2.coords t) ((Gen.dat2 (F := Ideal) V c).after 4 t) = _
  rw [Gen.after2_4]
  unfold Gen.out2_4
  rw [View.canon_unit_zero origin_zero]
  simp only [View.ld_unit_zero (S := S10000x64) origin_zero, View.ld_unit_zero (S := S64x64) origin_zero, View.ld_unit_zero (S := S1x64) origin_zero]
  refine block_ext fun p q => ?_
  obtain ⟨-, -, -, -, -, -, -, -, e0, e1⟩ := block_indices t
  have hN : grid2.N = 10 := Gen.N_2
  have ht : t.val < 10 := hN ▸ t.isLt
  show k2_pay2 (F := Ideal) (Gen.iblk2 V c 0 t) (Gen.iblk2 V c 1 t) (Gen.iblk2 V c 2 t) (ix2 p q)
     = Cert.Spec.threshold (Cert.Spec.sigmoidLayer (V c main_v44) (V c main_arg7) (V c main_v45)) (((cfg2.win 4).blk t).view.emb (ix2 p q))
  have hk : ((cfg2.win 4).blk t).view.emb (ix2 p q)
      = (ix2 (⟨t.val * 10000 + p.val, by have := p.isLt; omega⟩ : Fin 100000) q : S100000x64.Idx) := by
    funext a
    apply Fin.ext
    match a with
    | ⟨0, _⟩ => show win2_4.index t 0 * 10000 + 1 * p.val = t.val * 10000 + p.val; rw [e0]; omega
    | ⟨1, _⟩ => show win2_4.index t 1 * 64 + 1 * q.val = q.val; rw [e1]; omega
  rw [hk]
  exact threshold_point (V c main_v44) (V c main_arg7) (V c main_v45) (Gen.iblk2 V c 0 t) (Gen.iblk2 V c 1 t) (Gen.iblk2 V c 2 t)
    _ p q (fun k => feat_block_apply V c t (ix2 p k) (ix2 _ k) rfl rfl) (weight_block_eq V c t) (bias_block_eq V c t)

/-- An index of the first output array lies in point t's block iff each coordinate lies in the block's range on its axis. -/
theorem mem_sigmoid_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v46_0).slice (win2_3.rect t)).set ↔ _
  rw [View.set_slice_whole, Rect.mem_set_unit]
  exact Iff.rfl

/-- The same for the second output array. -/
theorem mem_threshold_block (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v46_1).slice (win2_4.rect t)).set ↔ _
  rw [View.set_slice_whole, Rect.mem_set_unit]
  exact Iff.rfl

/-- Row r of the 100000 rows lies in the block of the point r / 10000. -/
theorem point_of_row (i : S100000x64.Idx) : ∃ t : Fin cfg2.N, t.val = (i 0).val / 10000 := by
  have hi0 : (i 0).val < 100000 := (i 0).isLt
  have hN : grid2.N = 10 := Gen.N_2
  exact ⟨⟨(i 0).val / 10000, by show _ < grid2.N; omega⟩, rfl⟩

/-- The ten blocks of the first output cover its array. -/
theorem sigmoid_blocks_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := point_of_row i
  obtain ⟨-, -, -, -, -, -, e0, e1, -⟩ := block_indices t
  refine ⟨t, Gen.flush2_3 t, ?_⟩
  rw [mem_sigmoid_block]
  intro a
  match a with
  | ⟨0, _⟩ => show win2_3.index t 0 * 10000 ≤ (i 0).val ∧ (i 0).val < win2_3.index t 0 * 10000 + 10000; rw [e0, ht]; omega
  | ⟨1, _⟩ => show win2_3.index t 1 * 64 ≤ (i 1).val ∧ (i 1).val < win2_3.index t 1 * 64 + 64; rw [e1]; omega

/-- The ten blocks of the second output cover its array. -/
theorem threshold_blocks_cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := point_of_row i
  obtain ⟨-, -, -, -, -, -, -, -, e0, e1⟩ := block_indices t
  refine ⟨t, Gen.flush2_4 t, ?_⟩
  rw [mem_threshold_block]
  intro a
  match a with
  | ⟨0, _⟩ => show win2_4.index t 0 * 10000 ≤ (i 0).val ∧ (i 0).val < win2_4.index t 0 * 10000 + 10000; rw [e0, ht]; omega
  | ⟨1, _⟩ => show win2_4.index t 1 * 64 ≤ (i 1).val ∧ (i 1).val < win2_4.index t 1 * 64 + 64; rw [e1]; omega

/-- The first output array after the region: the sigmoid layer of the three arrays the region reads. -/
theorem out_array3 (c : Dev nD) :
    (Gen.dat2 (F := Ideal) V c).arrAt 3 cfg2.N
      = Cert.Spec.sigmoidLayer (V c main_v44) (V c main_arg7) (V c main_v45) :=
  (Gen.dat2 (F := Ideal) V c).arrAt_eq_of_cover 3 _ (fun t _ => sigmoid_written V c t) sigmoid_blocks_cover

/-- The second output array after the region: the threshold of that sigmoid layer. -/
theorem out_array4 (c : Dev nD) :
    (Gen.dat2 (F := Ideal) V c).arrAt 4 cfg2.N
      = Cert.Spec.threshold (Cert.Spec.sigmoidLayer (V c main_v44) (V c main_arg7) (V c main_v45)) :=
  (Gen.dat2 (F := Ideal) V c).arrAt_eq_of_cover 4 _ (fun t _ => threshold_written V c t) threshold_blocks_cover

end Cert.KernelIdeal.Reg2

end
-- ==== Proof.KValue.lean ====
/-
  The kernel program's two results as functions of its argument arrays, at the ideal values.
  Boundary by boundary: the host operations before the first dense layer leave the normalised neighbourhood sum a₁ of the
  input features; the first region leaves z₁ = max(a₁·W₁ + b₁, 0); the next host operations the neighbourhood sum a₂ of z₁;
  the second region z₂ = max(a₂·W₂ + b₂, 0); then a₃ of z₂; the third region h = 1/(1+e^(-(a₃·W₃ + b₃))) and its comparison
  with 1/2. A region changes only its output array; the edge lists, the normalisers and the later weights ride through.
-/
import proofs.«404706_j76201309766164_1_alg».proof.Proof.KRun
import proofs.«404706_j76201309766164_1_alg».proof.Proof.KHost
import proofs.«404706_j76201309766164_1_alg».proof.Proof.KReg0
import proofs.«404706_j76201309766164_1_alg».proof.Proof.KReg1
import proofs.«404706_j76201309766164_1_alg».proof.Proof.KReg2

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen Cert.KernelIdeal.Host

variable (m : (ℓ : Loc nD τ sig) → Buf (Elt Ideal) ℓ) (ρ : Dev nD → PrngReg)

/-! ## The arguments as launched, and the layers -/

abbrev x (c : Dev nD) : FVec Ideal S100000x64 .f32 := W0 m ρ c (Proc.devRef .tc main_arg0)
abbrev src (c : Dev nD) : IVec S1200000 32 := W0 m ρ c (Proc.devRef .tc main_arg1)
abbrev dst (c : Dev nD) : IVec S1200000 32 := W0 m ρ c (Proc.devRef .tc main_arg2)
abbrev w1 (c : Dev nD) : FVec Ideal S64x64 .f32 := W0 m ρ c (Proc.devRef .tc main_arg3)
abbrev b1 (c : Dev nD) : FVec Ideal S64 .f32 := W0 m ρ c (Proc.devRef .tc main_arg4)
abbrev w2 (c : Dev nD) : FVec Ideal S64x64 .f32 := W0 m ρ c (Proc.devRef .tc main_arg5)
abbrev b2 (c : Dev nD) : FVec Ideal S64 .f32 := W0 m ρ c (Proc.devRef .tc main_arg6)
abbrev w3 (c : Dev nD) : FVec Ideal S64x64 .f32 := W0 m ρ c (Proc.devRef .tc main_arg7)
abbrev b3 (c : Dev nD) : FVec Ideal S64 .f32 := W0 m ρ c (Proc.devRef .tc main_arg8)

/-- The source-side and destination-side degree normalisers. -/
def ns (c : Dev nD) : FVec Ideal S100000 .f32 := Cert.Spec.degNorm (src m ρ c)
def nd (c : Dev nD) : FVec Ideal S100000 .f32 := Cert.Spec.degNorm (dst m ρ c)
/-- The three layers' outputs. -/
def z1 (c : Dev nD) : FVec Ideal S100000x64 .f32 :=
  Cert.Spec.reluLayer (Cert.Spec.aggregate (x m ρ c) (ns m ρ c) (nd m ρ c) (src m ρ c) (dst m ρ c)) (w1 m ρ c) (Cert.Spec.biasRow (b1 m ρ c))
def z2 (c : Dev nD) : FVec Ideal S100000x64 .f32 :=
  Cert.Spec.reluLayer (Cert.Spec.aggregate (z1 m ρ c) (ns m ρ c) (nd m ρ c) (src m ρ c) (dst m ρ c)) (w2 m ρ c) (Cert.Spec.biasRow (b2 m ρ c))
def z3 (c : Dev nD) : FVec Ideal S100000x64 .f32 :=
  Cert.Spec.sigmoidLayer (Cert.Spec.aggregate (z2 m ρ c) (ns m ρ c) (nd m ρ c) (src m ρ c) (dst m ρ c)) (w3 m ρ c) (Cert.Spec.biasRow (b3 m ρ c))

theorem z3_eq_net (c : Dev nD) :
    z3 m ρ c = Cert.Spec.net (x m ρ c) (src m ρ c) (dst m ρ c) (w1 m ρ c) (b1 m ρ c) (w2 m ρ c) (b2 m ρ c) (w3 m ρ c) (b3 m ρ c) := rfl

/-! ## At the first region's entry -/

theorem W7_eq (c : Dev nD) : W7 m ρ c = StableHlo.after pre0 (W0 m ρ c) := pre0_fold (W0 m ρ c)

theorem k7_v20 (c : Dev nD) : W7 m ρ c (Proc.devRef .tc main_v20) = Cert.Spec.aggregate (x m ρ c) (ns m ρ c) (nd m ρ c) (src m ρ c) (dst m ρ c) := by
  rw [W7_eq, pre0_v20]; rfl
theorem k7_v21 (c : Dev nD) : W7 m ρ c (Proc.devRef .tc main_v21) = Cert.Spec.biasRow (b1 m ρ c) := by rw [W7_eq, pre0_v21]
theorem k7_v8 (c : Dev nD) : W7 m ρ c (Proc.devRef .tc main_v8) = ns m ρ c := by rw [W7_eq, pre0_v8]; rfl
theorem k7_v10 (c : Dev nD) : W7 m ρ c (Proc.devRef .tc main_v10) = nd m ρ c := by rw [W7_eq, pre0_v10]; rfl
theorem k7_arg1 (c : Dev nD) : W7 m ρ c (Proc.devRef .tc main_arg1) = src m ρ c := by rw [W7_eq, pre0_keep_arg1]
theorem k7_arg2 (c : Dev nD) : W7 m ρ c (Proc.devRef .tc main_arg2) = dst m ρ c := by rw [W7_eq, pre0_keep_arg2]
theorem k7_arg3 (c : Dev nD) : W7 m ρ c (Proc.devRef .tc main_arg3) = w1 m ρ c := by rw [W7_eq, pre0_keep_arg3]
theorem k7_arg5 (c : Dev nD) : W7 m ρ c (Proc.devRef .tc main_arg5) = w2 m ρ c := by rw [W7_eq, pre0_keep_arg5]
theorem k7_arg6 (c : Dev nD) : W7 m ρ c (Proc.devRef .tc main_arg6) = b2 m ρ c := by rw [W7_eq, pre0_keep_arg6]
theorem k7_arg7 (c : Dev nD) : W7 m ρ c (Proc.devRef .tc main_arg7) = w3 m ρ c := by rw [W7_eq, pre0_keep_arg7]
theorem k7_arg8 (c : Dev nD) : W7 m ρ c (Proc.devRef .tc main_arg8) = b3 m ρ c := by rw [W7_eq, pre0_keep_arg8]

/-! ## At the first region's exit -/

theorem k8_v22 (c : Dev nD) : W8 m ρ c (Proc.devRef .tc main_v22) = z1 m ρ c :=
  (W8_arr m ρ c 3).trans ((Reg0.out_array (V7 m ρ) c).trans (by
    show Cert.Spec.reluLayer (W7 m ρ c (Proc.devRef .tc main_v20)) (W7 m ρ c (Proc.devRef .tc main_arg3)) (W7 m ρ c (Proc.devRef .tc main_v21)) = _
    rw [k7_v20, k7_arg3, k7_v21]; rfl))
theorem k8_v8 (c : Dev nD) : W8 m ρ c (Proc.devRef .tc main_v8) = ns m ρ c := (W8_of_ne m ρ c main_v8 (by decide)).trans (k7_v8 m ρ c)
theorem k8_v10 (c : Dev nD) : W8 m ρ c (Proc.devRef .tc main_v10) = nd m ρ c := (W8_of_ne m ρ c main_v10 (by decide)).trans (k7_v10 m ρ c)
theorem k8_arg1 (c : Dev nD) : W8 m ρ c (Proc.devRef .tc main_arg1) = src m ρ c := (W8_of_ne m ρ c main_arg1 (by decide)).trans (k7_arg1 m ρ c)
theorem k8_arg2 (c : Dev nD) : W8 m ρ c (Proc.devRef .tc main_arg2) = dst m ρ c := (W8_of_ne m ρ c main_arg2 (by decide)).trans (k7_arg2 m ρ c)
theorem k8_arg5 (c : Dev nD) : W8 m ρ c (Proc.devRef .tc main_arg5) = w2 m ρ c := (W8_of_ne m ρ c main_arg5 (by decide)).trans (k7_arg5 m ρ c)
theorem k8_arg6 (c : Dev nD) : W8 m ρ c (Proc.devRef .tc main_arg6) = b2 m ρ c := (W8_of_ne m ρ c main_arg6 (by decide)).trans (k7_arg6 m ρ c)
theorem k8_arg7 (c : Dev nD) : W8 m ρ c (Proc.devRef .tc main_arg7) = w3 m ρ c := (W8_of_ne m ρ c main_arg7 (by decide)).trans (k7_arg7 m ρ c)
theorem k8_arg8 (c : Dev nD) : W8 m ρ c (Proc.devRef .tc main_arg8) = b3 m ρ c := (W8_of_ne m ρ c main_arg8 (by decide)).trans (k7_arg8 m ρ c)

/-! ## At the second region's entry -/

theorem W11_eq (c : Dev nD) : W11 m ρ c = StableHlo.after pre1 (W8 m ρ c) := pre1_fold (W8 m ρ c)

theorem k11_v32 (c : Dev nD) : W11 m ρ c (Proc.devRef .tc main_v32) = Cert.Spec.aggregate (z1 m ρ c) (ns m ρ c) (nd m ρ c) (src m ρ c) (dst m ρ c) := by
  rw [W11_eq, pre1_v32, k8_v22, k8_v8, k8_v10, k8_arg1, k8_arg2]
theorem k11_v33 (c : Dev nD) : W11 m ρ c (Proc.devRef .tc main_v33) = Cert.Spec.biasRow (b2 m ρ c) := by rw [W11_eq, pre1_v33, k8_arg6]
theorem k11_v8 (c : Dev nD) : W11 m ρ c (Proc.devRef .tc main_v8) = ns m ρ c := by rw [W11_eq, pre1_keep_v8, k8_v8]
theorem k11_v10 (c : Dev nD) : W11 m ρ c (Proc.devRef .tc main_v10) = nd m ρ c := by rw [W11_eq, pre1_keep_v10, k8_v10]
theorem k11_arg1 (c : Dev nD) : W11 m ρ c (Proc.devRef .tc main_arg1) = src m ρ c := by rw [W11_eq, pre1_keep_arg1, k8_arg1]
theorem k11_arg2 (c : Dev nD) : W11 m ρ c (Proc.devRef .tc main_arg2) = dst m ρ c := by rw [W11_eq, pre1_keep_arg2, k8_arg2]
theorem k11_arg5 (c : Dev nD) : W11 m ρ c (Proc.devRef .tc main_arg5) = w2 m ρ c := by rw [W11_eq, pre1_keep_arg5, k8_arg5]
theorem k11_arg7 (c : Dev nD) : W11 m ρ c (Proc.devRef .tc main_arg7) = w3 m ρ c := by rw [W11_eq, pre1_keep_arg7, k8_arg7]
theorem k11_arg8 (c : Dev nD) : W11 m ρ c (Proc.devRef .tc main_arg8) = b3 m ρ c := by rw [W11_eq, pre1_keep_arg8, k8_arg8]

/-! ## At the second region's exit -/

theorem k12_v34 (c : Dev nD) : W12 m ρ c (Proc.devRef .tc main_v34) = z2 m ρ c :=
  (W12_arr m ρ c 3).trans ((Reg1.out_array (V11 m ρ) c).trans (by
    show Cert.Spec.reluLayer (W11 m ρ c (Proc.devRef .tc main_v32)) (W11 m ρ c (Proc.devRef .tc main_arg5)) (W11 m ρ c (Proc.devRef .tc main_v33)) = _
    rw [k11_v32, k11_arg5, k11_v33]; rfl))
theorem k12_v8 (c : Dev nD) : W12 m ρ c (Proc.devRef .tc main_v8) = ns m ρ c := (W12_of_ne m ρ c main_v8 (by decide)).trans (k11_v8 m ρ c)
theorem k12_v10 (c : Dev nD) : W12 m ρ c (Proc.devRef .tc main_v10) = nd m ρ c := (W12_of_ne m ρ c main_v10 (by decide)).trans (k11_v10 m ρ c)
theorem k12_arg1 (c : Dev nD) : W12 m ρ c (Proc.devRef .tc main_arg1) = src m ρ c := (W12_of_ne m ρ c main_arg1 (by decide)).trans (k11_arg1 m ρ c)
theorem k12_arg2 (c : Dev nD) : W12 m ρ c (Proc.devRef .tc main_arg2) = dst m ρ c := (W12_of_ne m ρ c main_arg2 (by decide)).trans (k11_arg2 m ρ c)
theorem k12_arg7 (c : Dev nD) : W12 m ρ c (Proc.devRef .tc main_arg7) = w3 m ρ c := (W12_of_ne m ρ c main_arg7 (by decide)).trans (k11_arg7 m ρ c)
theorem k12_arg8 (c : Dev nD) : W12 m ρ c (Proc.devRef .tc main_arg8) = b3 m ρ c := (W12_of_ne m ρ c main_arg8 (by decide)).trans (k11_arg8 m ρ c)

/-! ## At the third region's entry -/

theorem W15_eq (c : Dev nD) : W15 m ρ c = StableHlo.after pre2 (W12 m ρ c) := pre2_fold (W12 m ρ c)

theorem k15_v44 (c : Dev nD) : W15 m ρ c (Proc.devRef .tc main_v44) = Cert.Spec.aggregate (z2 m ρ c) (ns m ρ c) (nd m ρ c) (src m ρ c) (dst m ρ c) := by
  rw [W15_eq, pre2_v44, k12_v34, k12_v8, k12_v10, k12_arg1, k12_arg2]
theorem k15_v45 (c : Dev nD) : W15 m ρ c (Proc.devRef .tc main_v45) = Cert.Spec.biasRow (b3 m ρ c) := by rw [W15_eq, pre2_v45, k12_arg8]
theorem k15_arg7 (c : Dev nD) : W15 m ρ c (Proc.devRef .tc main_arg7) = w3 m ρ c := by rw [W15_eq, pre2_keep_arg7, k12_arg7]

/-! ## The two results -/

theorem k16_v46_0 (c : Dev nD) : W16 m ρ c (Proc.devRef .tc main_v46_0) = z3 m ρ c :=
  (W16_arr m ρ c 3).trans ((Reg2.out_array3 (V15 m ρ) c).trans (by
    show Cert.Spec.sigmoidLayer (W15 m ρ c (Proc.devRef .tc main_v44)) (W15 m ρ c (Proc.devRef .tc main_arg7)) (W15 m ρ c (Proc.devRef .tc main_v45)) = _
    rw [k15_v44, k15_arg7, k15_v45]; rfl))
theorem k16_v46_1 (c : Dev nD) : W16 m ρ c (Proc.devRef .tc main_v46_1) = Cert.Spec.threshold (z3 m ρ c) :=
  (W16_arr m ρ c 4).trans ((Reg2.out_array4 (V15 m ρ) c).trans (by
    show Cert.Spec.threshold (Cert.Spec.sigmoidLayer (W15 m ρ c (Proc.devRef .tc main_v44)) (W15 m ρ c (Proc.devRef .tc main_arg7)) (W15 m ρ c (Proc.devRef .tc main_v45))) = _
    rw [k15_v44, k15_arg7, k15_v45]; rfl))

/-- Every weakly fair execution of @main terminates without a fault; the first result is the three-layer network of the
    arguments, the second its comparison with 1/2, and the arguments end as launched. -/
theorem run : θ_run defs (onTc (τ := τ) (main (F := Ideal))) ⟨m, fun _ => 0, ρ⟩ (fun r => ∀ c : Dev nD,
      r.2.mem ((c.tc : Thread nD τ).loc main_v46_0) = z3 m ρ c
      ∧ r.2.mem ((c.tc : Thread nD τ).loc main_v46_1) = Cert.Spec.threshold (z3 m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (k16_v46_0 m ρ c), (h c).2.1.trans (k16_v46_1 m ρ c), (h c).2.2⟩) (run_named m ρ)

end Cert.KernelIdeal.Net

end
-- ==== Proof.RLists.lean ====
import proofs.«404706_j76201309766164_1_alg».proof.Proof.Gen.ReferenceIdeal
import Idealize.ShloMosaic.Lib.StableHlo.Run

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

/-- 11 operations of @main, in order. -/
abbrev r0 : List (HloOp τ sig (Elt F)) :=
  [ StableHlo.nullary main_cst (constant S_ .f32 0x3F800000#32),
    StableHlo.unary main_cst main_v0 (broadcastInDim S1200000 ![] bcast_S_S1200000 : (⟨S_, .f32⟩ : BufTy).Contents (Elt F) → (⟨S1200000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1200000x1 ![0] bcast_S1200000_S1200000x1_0 : (⟨S1200000, .i32⟩ : BufTy).Contents (Elt F) → (⟨S1200000x1, .i32⟩ : BufTy).Contents (Elt F)),
    StableHlo.ternary main_v1 main_v2 main_v0 main_v3 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1200000x1 ![0] bcast_S1200000_S1200000x1_0 : (⟨S1200000, .i32⟩ : BufTy).Contents (Elt F) → (⟨S1200000x1, .i32⟩ : BufTy).Contents (Elt F)),
    StableHlo.ternary main_v4 main_v5 main_v0 main_v6 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_2 (constant S_ .f32 0x3F800000#32) ]
theorem r0_sub : (r0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub ..⟩
theorem r0_fresh : (r0 : List (HloOp τ sig (Elt F))).Forall fun op => op.fresh = ∅ := by
  simp only [List.Forall]; repeat' constructor

/-- 3 operations of @clip (main_call0), in order. -/
abbrev r1 : List (HloOp τ sig (Elt F)) :=
  [ StableHlo.unary main_cst_2 main_call0_v0 (id : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.binary main_call0_v1 main_v3 main_v7 (maximumf : (⟨S100000, .f32⟩ : BufTy).Contents (Elt F) → (⟨S100000, .f32⟩ : BufTy).Contents (Elt F) → (⟨S100000, .f32⟩ : BufTy).Contents (Elt F)) ]
theorem r1_sub : (r1 : List (HloOp τ sig (Elt F))).Forall fun op => op.bufs ⊆ StableHlo.tcRefs τ sig :=
  ⟨StableHlo.unary_bufs_sub .., StableHlo.unary_bufs_sub .., StableHlo.binary_bufs_sub ..⟩
theorem r1_fresh : (r1 : List (HloOp τ sig (Elt F))).Forall fun op => op.fresh = ∅ := by
  simp only [List.Forall]; repeat' constructor

/-- 2 operations of @main, in order. -/
abbrev r2 : List (HloOp τ sig (Elt F)) :=
  [ StableHlo.unary main_v7 main_v8 (Host.rsqrt : (⟨S100000, .f32⟩ : BufTy).Contents (Elt F) → (⟨S100000, .f32⟩ : BufTy).Contents (Elt F)),
    StableHlo.nullary main_cst_3 (constant S_ .f32 0x3F800000#32) ]
theorem r2_sub : (r2 : List (HloOp τ sig (Elt F))).Forall fun op => op.bufs ⊆ StableHlo.tcRefs τ sig :=
  ⟨StableHlo.unary_bufs_sub .., StableHlo.nullary_bufs_sub ..⟩
theorem r2_fresh : (r2 : List (HloOp τ sig (Elt F))).Forall fun op => op.fresh = ∅ := by
  simp only [List.Forall]; repeat' constructor

/-- 3 operations of @clip (main_call1), in order. -/
abbrev r3 : List (HloOp τ sig (Elt F)) :=
  [ StableHlo.unary main_cst_3 main_call1_v0 (id : (⟨S_, .f32⟩ : BufTy).Contents (Elt F) → (⟨S_, .f32⟩ : BufTy).Contents (Elt F)),
    StableHlo.unary main_call1_v0 main_call1_v1 ((broadcastInDim S100000 ![] bcast_S_S100000) : (⟨S_, .f32⟩ : BufTy).Contents (Elt F) → (⟨S100000, .f32⟩ : BufTy).Contents (Elt F)),
    StableHlo.binary main_call1_v1 main_v6 main_v9 (maximumf : (⟨S100000, .f32⟩ : BufTy).Contents (Elt F) → (⟨S100000, .f32⟩ : BufTy).Contents (Elt F) → (⟨S100000, .f32⟩ : BufTy).Contents (Elt F)) ]
theorem r3_sub : (r3 : List (HloOp τ sig (Elt F))).Forall fun op => op.bufs ⊆ StableHlo.tcRefs τ sig :=
  ⟨StableHlo.unary_bufs_sub .., StableHlo.unary_bufs_sub .., StableHlo.binary_bufs_sub ..⟩
theorem r3_fresh : (r3 : List (HloOp τ sig (Elt F))).Forall fun op => op.fresh = ∅ := by
  simp only [List.Forall]; repeat' constructor

/-- 4 operations of @main, in order. -/
abbrev r4 : List (HloOp τ sig (Elt F)) :=
  [ StableHlo.unary main_v9 main_v10 (Host.rsqrt : (⟨S100000, .f32⟩ : BufTy).Contents (Elt F) → (⟨S100000, .f32⟩ : BufTy).Contents (Elt F)),
    StableHlo.unary main_v8 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v12 main_v13 (mulf : (⟨S100000x64, .f32⟩ : BufTy).Contents (Elt F) → (⟨S100000x64, .f32⟩ : BufTy).Contents (Elt F) → (⟨S100000x64, .f32⟩ : BufTy).Contents (Elt F)) ]
theorem r4_sub : (r4 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub ..⟩
theorem r4_fresh : (r4 : List (HloOp τ sig (Elt F))).Forall fun op => op.fresh = ∅ := by
  simp only [List.Forall]; repeat' constructor

/-- 23 operations of @take (main_call2), in order. -/
abbrev r5 : List (HloOp τ sig (Elt F)) :=
  [ StableHlo.nullary main_call2_c ((constantI S_ 32 0#32) : (⟨S_, .i32⟩ : BufTy).Contents (Elt F)),
    StableHlo.unary main_call2_c main_call2_v0 ((broadcastInDim S1200000 ![] bcast_S_S1200000) : (⟨S_, .i32⟩ : BufTy).Contents (Elt F) → (⟨S1200000, .i32⟩ : BufTy).Contents (Elt F)),
    StableHlo.binary main_arg1 main_call2_v0 main_call2_v1 ((cmpi .slt) : (⟨S1200000, .i32⟩ : BufTy).Contents (Elt F) → (⟨S1200000, .i32⟩ : BufTy).Contents (Elt F) → (⟨S1200000, .i1⟩ : BufTy).Contents (Elt F)),
    StableHlo.nullary main_call2_c_0 ((constantI S_ 32 100000#32) : (⟨S_, .i32⟩ : BufTy).Contents (Elt F)),
    StableHlo.unary main_call2_c_0 main_call2_v2 ((broadcastInDim S1200000 ![] bcast_S_S1200000) : (⟨S_, .i32⟩ : BufTy).Contents (Elt F) → (⟨S1200000, .i32⟩ : BufTy).Contents (Elt F)),
    StableHlo.binary main_arg1 main_call2_v2 main_call2_v3 (addi : (⟨S1200000, .i32⟩ : BufTy).Contents (Elt F) → (⟨S1200000, .i32⟩ : BufTy).Contents (Elt F) → (⟨S1200000, .i32⟩ : BufTy).Contents (Elt F)),
    StableHlo.ternary main_call2_v1 main_call2_v3 main_arg1 main_call2_v4 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_call2_v4 main_call2_v5 ((broadcastInDim S1200000x1 ![0] bcast_S1200000_S1200000x1_0) : (⟨S1200000, .i32⟩ : BufTy).Contents (Elt F) → (⟨S1200000x1, .i32⟩ : BufTy).Contents (Elt F)),
    StableHlo.nullary main_call2_c_1 ((constantI S1 32 99999#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S1200000x1 ![] bcast_S_S1200000x1) : (⟨S_, .i32⟩ : BufTy).Contents (Elt F) → (⟨S1200000x1, .i32⟩ : BufTy).Contents (Elt F)),
    StableHlo.binary main_call2_v5 main_call2_v6 main_call2_v7 ((cmpi .sge) : (⟨S1200000x1, .i32⟩ : BufTy).Contents (Elt F) → (⟨S1200000x1, .i32⟩ : BufTy).Contents (Elt F) → (⟨S1200000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1200000x1 ![0, 1] bcast_S1x1_S1200000x1_0_1) : (⟨S1x1, .i32⟩ : BufTy).Contents (Elt F) → (⟨S1200000x1, .i32⟩ : BufTy).Contents (Elt F)),
    StableHlo.binary main_call2_v5 main_call2_v9 main_call2_v10 ((cmpi .sle) : (⟨S1200000x1, .i32⟩ : BufTy).Contents (Elt F) → (⟨S1200000x1, .i32⟩ : BufTy).Contents (Elt F) → (⟨S1200000x1, .i1⟩ : BufTy).Contents (Elt F)),
    StableHlo.binary main_call2_v7 main_call2_v10 main_call2_v11 (andi : (⟨S1200000x1, .i1⟩ : BufTy).Contents (Elt F) → (⟨S1200000x1, .i1⟩ : BufTy).Contents (Elt F) → (⟨S1200000x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S1200000x1_S1200000_d1 h_S_) : (⟨S1200000x1, .i1⟩ : BufTy).Contents (Elt F) → (⟨S_, .i1⟩ : BufTy).Contents (Elt F) → (⟨S1200000, .i1⟩ : BufTy).Contents (Elt F)),
    StableHlo.binary main_v13 main_call2_v5 main_call2_v13 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_call2_v12 main_call2_v14 ((broadcastInDim S1200000x64 ![0] bcast_S1200000_S1200000x64_0) : (⟨S1200000, .i1⟩ : BufTy).Contents (Elt F) → (⟨S1200000x64, .i1⟩ : BufTy).Contents (Elt F)),
    StableHlo.nullary main_call2_cst ((constant S_ .f32 0x7FC00000#32) : (⟨S_, .f32⟩ : BufTy).Contents (Elt F)),
    StableHlo.unary main_call2_cst main_call2_v15 ((broadcastInDim S1200000x64 ![] bcast_S_S1200000x64) : (⟨S_, .f32⟩ : BufTy).Contents (Elt F) → (⟨S1200000x64, .f32⟩ : BufTy).Contents (Elt F)),
    StableHlo.ternary main_call2_v14 main_call2_v13 main_call2_v15 main_v14 (select : (⟨S1200000x64, .i1⟩ : BufTy).Contents (Elt F) → (⟨S1200000x64, .f32⟩ : BufTy).Contents (Elt F) → (⟨S1200000x64, .f32⟩ : BufTy).Contents (Elt F) → (⟨S1200000x64, .f32⟩ : BufTy).Contents (Elt F)) ]
theorem r5_sub : (r5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem r5_fresh : (r5 : List (HloOp τ sig (Elt F))).Forall fun op => op.fresh = ∅ := by
  simp only [List.Forall]; repeat' constructor

/-- 11 operations of @main, in order. -/
abbrev r6 : List (HloOp τ sig (Elt F)) :=
  [ StableHlo.nullary main_cst_4 (constant S_ .f32 0x00000000#32),
    StableHlo.unary main_cst_4 main_v15 (broadcastInDim S100000x64 ![] bcast_S_S100000x64 : (⟨S_, .f32⟩ : BufTy).Contents (Elt F) → (⟨S100000x64, .f32⟩ : BufTy).Contents (Elt F)),
    StableHlo.unary main_arg2 main_v16 (broadcastInDim S1200000x1 ![0] bcast_S1200000_S1200000x1_0 : (⟨S1200000, .i32⟩ : BufTy).Contents (Elt F) → (⟨S1200000x1, .i32⟩ : BufTy).Contents (Elt F)),
    StableHlo.ternary main_v15 main_v16 main_v14 main_v17 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_v10 main_v18 (broadcastInDim S100000x1 ![0] bcast_S100000_S100000x1_0 : (⟨S100000, .f32⟩ : BufTy).Contents (Elt F) → (⟨S100000x1, .f32⟩ : BufTy).Contents (Elt F)),
    StableHlo.unary main_v18 main_v19 (broadcastInDim S100000x64 ![0, 1] bcast_S100000x1_S100000x64_0_1 : (⟨S100000x1, .f32⟩ : BufTy).Contents (Elt F) → (⟨S100000x64, .f32⟩ : BufTy).Contents (Elt F)),
    StableHlo.binary main_v17 main_v19 main_v20 (mulf : (⟨S100000x64, .f32⟩ : BufTy).Contents (Elt F) → (⟨S100000x64, .f32⟩ : BufTy).Contents (Elt F) → (⟨S100000x64, .f32⟩ : BufTy).Contents (Elt F)),
    StableHlo.binary main_v20 main_arg3 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v21 main_v23 main_v24 (addf : (⟨S100000x64, .f32⟩ : BufTy).Contents (Elt F) → (⟨S100000x64, .f32⟩ : BufTy).Contents (Elt F) → (⟨S100000x64, .f32⟩ : BufTy).Contents (Elt F)) ]
theorem r6_sub : (r6 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem r6_fresh : (r6 : List (HloOp τ sig (Elt F))).Forall fun op => op.fresh = ∅ := by
  simp only [List.Forall]; repeat' constructor

/-- 3 operations of @relu (main_call3), in order. -/
abbrev r7 : List (HloOp τ sig (Elt F)) :=
  [ StableHlo.nullary main_call3_cst ((constant S_ .f32 0x00000000#32) : (⟨S_, .f32⟩ : BufTy).Contents (Elt F)),
    StableHlo.unary main_call3_cst main_call3_v0 ((broadcastInDim S100000x64 ![] bcast_S_S100000x64) : (⟨S_, .f32⟩ : BufTy).Contents (Elt F) → (⟨S100000x64, .f32⟩ : BufTy).Contents (Elt F)),
    StableHlo.binary main_v24 main_call3_v0 main_v25 (maximumf : (⟨S100000x64, .f32⟩ : BufTy).Contents (Elt F) → (⟨S100000x64, .f32⟩ : BufTy).Contents (Elt F) → (⟨S100000x64, .f32⟩ : BufTy).Contents (Elt F)) ]
theorem r7_sub : (r7 : List (HloOp τ sig (Elt F))).Forall fun op => op.bufs ⊆ StableHlo.tcRefs τ sig :=
  ⟨StableHlo.nullary_bufs_sub .., StableHlo.unary_bufs_sub .., StableHlo.binary_bufs_sub ..⟩
theorem r7_fresh : (r7 : List (HloOp τ sig (Elt F))).Forall fun op => op.fresh = ∅ := by
  simp only [List.Forall]; repeat' constructor

/-- 3 operations of @main, in order. -/
abbrev r8 : List (HloOp τ sig (Elt F)) :=
  [ StableHlo.unary main_v8 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x64 ![0, 1] bcast_S100000x1_S100000x64_0_1 : (⟨S100000x1, .f32⟩ : BufTy).Contents (Elt F) → (⟨S100000x64, .f32⟩ : BufTy).Contents (Elt F)),
    StableHlo.binary main_v25 main_v27 main_v28 (mulf : (⟨S100000x64, .f32⟩ : BufTy).Contents (Elt F) → (⟨S100000x64, .f32⟩ : BufTy).Contents (Elt F) → (⟨S100000x64, .f32⟩ : BufTy).Contents (Elt F)) ]
theorem r8_sub : (r8 : List (HloOp τ sig (Elt F))).Forall fun op => op.bufs ⊆ StableHlo.tcRefs τ sig :=
  ⟨StableHlo.unary_bufs_sub .., StableHlo.unary_bufs_sub .., StableHlo.binary_bufs_sub ..⟩
theorem r8_fresh : (r8 : List (HloOp τ sig (Elt F))).Forall fun op => op.fresh = ∅ := by
  simp only [List.Forall]; repeat' constructor

/-- 23 operations of @take (main_call4), in order. -/
abbrev r9 : List (HloOp τ sig (Elt F)) :=
  [ StableHlo.nullary main_call4_c ((constantI S_ 32 0#32) : (⟨S_, .i32⟩ : BufTy).Contents (Elt F)),
    StableHlo.unary main_call4_c main_call4_v0 ((broadcastInDim S1200000 ![] bcast_S_S1200000) : (⟨S_, .i32⟩ : BufTy).Contents (Elt F) → (⟨S1200000, .i32⟩ : BufTy).Contents (Elt F)),
    StableHlo.binary main_arg1 main_call4_v0 main_call4_v1 ((cmpi .slt) : (⟨S1200000, .i32⟩ : BufTy).Contents (Elt F) → (⟨S1200000, .i32⟩ : BufTy).Contents (Elt F) → (⟨S1200000, .i1⟩ : BufTy).Contents (Elt F)),
    StableHlo.nullary main_call4_c_0 ((constantI S_ 32 100000#32) : (⟨S_, .i32⟩ : BufTy).Contents (Elt F)),
    StableHlo.unary main_call4_c_0 main_call4_v2 ((broadcastInDim S1200000 ![] bcast_S_S1200000) : (⟨S_, .i32⟩ : BufTy).Contents (Elt F) → (⟨S1200000, .i32⟩ : BufTy).Contents (Elt F)),
    StableHlo.binary main_arg1 main_call4_v2 main_call4_v3 (addi : (⟨S1200000, .i32⟩ : BufTy).Contents (Elt F) → (⟨S1200000, .i32⟩ : BufTy).Contents (Elt F) → (⟨S1200000, .i32⟩ : BufTy).Contents (Elt F)),
    StableHlo.ternary main_call4_v1 main_call4_v3 main_arg1 main_call4_v4 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_call4_v4 main_call4_v5 ((broadcastInDim S1200000x1 ![0] bcast_S1200000_S1200000x1_0) : (⟨S1200000, .i32⟩ : BufTy).Contents (Elt F) → (⟨S1200000x1, .i32⟩ : BufTy).Contents (Elt F)),
    StableHlo.nullary main_call4_c_1 ((constantI S1 32 99999#32) : (⟨S1, .i32⟩ : BufTy).Contents (Elt F)),
    StableHlo.nullary main_call4_c_2 ((constantI S_ 32 0#32) : (⟨S_, .i32⟩ : BufTy).Contents (Elt F)),
    StableHlo.unary main_call4_c_2 main_call4_v6 ((broadcastInDim S1200000x1 ![] bcast_S_S1200000x1) : (⟨S_, .i32⟩ : BufTy).Contents (Elt F) → (⟨S1200000x1, .i32⟩ : BufTy).Contents (Elt F)),
    StableHlo.binary main_call4_v5 main_call4_v6 main_call4_v7 ((cmpi .sge) : (⟨S1200000x1, .i32⟩ : BufTy).Contents (Elt F) → (⟨S1200000x1, .i32⟩ : BufTy).Contents (Elt F) → (⟨S1200000x1, .i1⟩ : BufTy).Contents (Elt F)),
    StableHlo.unary main_call4_c_1 main_call4_v8 ((broadcastInDim S1x1 ![1] bcast_S1_S1x1_1) : (⟨S1, .i32⟩ : BufTy).Contents (Elt F) → (⟨S1x1, .i32⟩ : BufTy).Contents (Elt F)),
    StableHlo.unary main_call4_v8 main_call4_v9 ((broadcastInDim S1200000x1 ![0, 1] bcast_S1x1_S1200000x1_0_1) : (⟨S1x1, .i32⟩ : BufTy).Contents (Elt F) → (⟨S1200000x1, .i32⟩ : BufTy).Contents (Elt F)),
    StableHlo.binary main_call4_v5 main_call4_v9 main_call4_v10 ((cmpi .sle) : (⟨S1200000x1, .i32⟩ : BufTy).Contents (Elt F) → (⟨S1200000x1, .i32⟩ : BufTy).Contents (Elt F) → (⟨S1200000x1, .i1⟩ : BufTy).Contents (Elt F)),
    StableHlo.binary main_call4_v7 main_call4_v10 main_call4_v11 (andi : (⟨S1200000x1, .i1⟩ : BufTy).Contents (Elt F) → (⟨S1200000x1, .i1⟩ : BufTy).Contents (Elt F) → (⟨S1200000x1, .i1⟩ : BufTy).Contents (Elt F)),
    StableHlo.nullary main_call4_c_3 ((constantI S_ 1 1#1) : (⟨S_, .i1⟩ : BufTy).Contents (Elt F)),
    StableHlo.binary main_call4_v11 main_call4_c_3 main_call4_v12 ((fun x v => Host.reduce IntOp.andi x v reducesTo_S1200000x1_S1200000_d1 h_S_) : (⟨S1200000x1, .i1⟩ : BufTy).Contents (Elt F) → (⟨S_, .i1⟩ : BufTy).Contents (Elt F) → (⟨S1200000, .i1⟩ : BufTy).Contents (Elt F)),
    StableHlo.binary main_v28 main_call4_v5 main_call4_v13 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_call4_v12 main_call4_v14 ((broadcastInDim S1200000x64 ![0] bcast_S1200000_S1200000x64_0) : (⟨S1200000, .i1⟩ : BufTy).Contents (Elt F) → (⟨S1200000x64, .i1⟩ : BufTy).Contents (Elt F)),
    StableHlo.nullary main_call4_cst ((constant S_ .f32 0x7FC00000#32) : (⟨S_, .f32⟩ : BufTy).Contents (Elt F)),
    StableHlo.unary main_call4_cst main_call4_v15 ((broadcastInDim S1200000x64 ![] bcast_S_S1200000x64) : (⟨S_, .f32⟩ : BufTy).Contents (Elt F) → (⟨S1200000x64, .f32⟩ : BufTy).Contents (Elt F)),
    StableHlo.ternary main_call4_v14 main_call4_v13 main_call4_v15 main_v29 (select : (⟨S1200000x64, .i1⟩ : BufTy).Contents (Elt F) → (⟨S1200000x64, .f32⟩ : BufTy).Contents (Elt F) → (⟨S1200000x64, .f32⟩ : BufTy).Contents (Elt F) → (⟨S1200000x64, .f32⟩ : BufTy).Contents (Elt F)) ]
theorem r9_sub : (r9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem r9_fresh : (r9 : List (HloOp τ sig (Elt F))).Forall fun op => op.fresh = ∅ := by
  simp only [List.Forall]; repeat' constructor

/-- 11 operations of @main, in order. -/
abbrev r10 : List (HloOp τ sig (Elt F)) :=
  [ StableHlo.nullary main_cst_5 (constant S_ .f32 0x00000000#32),
    StableHlo.unary main_cst_5 main_v30 (broadcastInDim S100000x64 ![] bcast_S_S100000x64 : (⟨S_, .f32⟩ : BufTy).Contents (Elt F) → (⟨S100000x64, .f32⟩ : BufTy).Contents (Elt F)),
    StableHlo.unary main_arg2 main_v31 (broadcastInDim S1200000x1 ![0] bcast_S1200000_S1200000x1_0 : (⟨S1200000, .i32⟩ : BufTy).Contents (Elt F) → (⟨S1200000x1, .i32⟩ : BufTy).Contents (Elt F)),
    StableHlo.ternary main_v30 main_v31 main_v29 main_v32 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_v10 main_v33 (broadcastInDim S100000x1 ![0] bcast_S100000_S100000x1_0 : (⟨S100000, .f32⟩ : BufTy).Contents (Elt F) → (⟨S100000x1, .f32⟩ : BufTy).Contents (Elt F)),
    StableHlo.unary main_v33 main_v34 (broadcastInDim S100000x64 ![0, 1] bcast_S100000x1_S100000x64_0_1 : (⟨S100000x1, .f32⟩ : BufTy).Contents (Elt F) → (⟨S100000x64, .f32⟩ : BufTy).Contents (Elt F)),
    StableHlo.binary main_v32 main_v34 main_v35 (mulf : (⟨S100000x64, .f32⟩ : BufTy).Contents (Elt F) → (⟨S100000x64, .f32⟩ : BufTy).Contents (Elt F) → (⟨S100000x64, .f32⟩ : BufTy).Contents (Elt F)),
    StableHlo.binary main_v35 main_arg5 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)) ]
theorem r10_sub : (r10 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem r10_fresh : (r10 : List (HloOp τ sig (Elt F))).Forall fun op => op.fresh = ∅ := by
  simp only [List.Forall]; repeat' constructor

/-- 3 operations of @relu (main_call5), in order. -/
abbrev r11 : List (HloOp τ sig (Elt F)) :=
  [ StableHlo.nullary main_call5_cst ((constant S_ .f32 0x00000000#32) : (⟨S_, .f32⟩ : BufTy).Contents (Elt F)),
    StableHlo.unary main_call5_cst main_call5_v0 ((broadcastInDim S100000x64 ![] bcast_S_S100000x64) : (⟨S_, .f32⟩ : BufTy).Contents (Elt F) → (⟨S100000x64, .f32⟩ : BufTy).Contents (Elt F)),
    StableHlo.binary main_v39 main_call5_v0 main_v40 (maximumf : (⟨S100000x64, .f32⟩ : BufTy).Contents (Elt F) → (⟨S100000x64, .f32⟩ : BufTy).Contents (Elt F) → (⟨S100000x64, .f32⟩ : BufTy).Contents (Elt F)) ]
theorem r11_sub : (r11 : List (HloOp τ sig (Elt F))).Forall fun op => op.bufs ⊆ StableHlo.tcRefs τ sig :=
  ⟨StableHlo.nullary_bufs_sub .., StableHlo.unary_bufs_sub .., StableHlo.binary_bufs_sub ..⟩
theorem r11_fresh : (r11 : List (HloOp τ sig (Elt F))).Forall fun op => op.fresh = ∅ := by
  simp only [List.Forall]; repeat' constructor

/-- 3 operations of @main, in order. -/
abbrev r12 : List (HloOp τ sig (Elt F)) :=
  [ StableHlo.unary main_v8 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v40 main_v42 main_v43 (mulf : (⟨S100000x64, .f32⟩ : BufTy).Contents (Elt F) → (⟨S100000x64, .f32⟩ : BufTy).Contents (Elt F) → (⟨S100000x64, .f32⟩ : BufTy).Contents (Elt F)) ]
theorem r12_sub : (r12 : List (HloOp τ sig (Elt F))).Forall fun op => op.bufs ⊆ StableHlo.tcRefs τ sig :=
  ⟨StableHlo.unary_bufs_sub .., StableHlo.unary_bufs_sub .., StableHlo.binary_bufs_sub ..⟩
theorem r12_fresh : (r12 : List (HloOp τ sig (Elt F))).Forall fun op => op.fresh = ∅ := by
  simp only [List.Forall]; repeat' constructor

/-- 23 operations of @take (main_call6), in order. -/
abbrev r13 : List (HloOp τ sig (Elt F)) :=
  [ StableHlo.nullary main_call6_c ((constantI S_ 32 0#32) : (⟨S_, .i32⟩ : BufTy).Contents (Elt F)),
    StableHlo.unary main_call6_c main_call6_v0 ((broadcastInDim S1200000 ![] bcast_S_S1200000) : (⟨S_, .i32⟩ : BufTy).Contents (Elt F) → (⟨S1200000, .i32⟩ : BufTy).Contents (Elt F)),
    StableHlo.binary main_arg1 main_call6_v0 main_call6_v1 ((cmpi .slt) : (⟨S1200000, .i32⟩ : BufTy).Contents (Elt F) → (⟨S1200000, .i32⟩ : BufTy).Contents (Elt F) → (⟨S1200000, .i1⟩ : BufTy).Contents (Elt F)),
    StableHlo.nullary main_call6_c_0 ((constantI S_ 32 100000#32) : (⟨S_, .i32⟩ : BufTy).Contents (Elt F)),
    StableHlo.unary main_call6_c_0 main_call6_v2 ((broadcastInDim S1200000 ![] bcast_S_S1200000) : (⟨S_, .i32⟩ : BufTy).Contents (Elt F) → (⟨S1200000, .i32⟩ : BufTy).Contents (Elt F)),
    StableHlo.binary main_arg1 main_call6_v2 main_call6_v3 (addi : (⟨S1200000, .i32⟩ : BufTy).Contents (Elt F) → (⟨S1200000, .i32⟩ : BufTy).Contents (Elt F) → (⟨S1200000, .i32⟩ : BufTy).Contents (Elt F)),
    StableHlo.ternary main_call6_v1 main_call6_v3 main_arg1 main_call6_v4 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_call6_v4 main_call6_v5 ((broadcastInDim S1200000x1 ![0] bcast_S1200000_S1200000x1_0) : (⟨S1200000, .i32⟩ : BufTy).Contents (Elt F) → (⟨S1200000x1, .i32⟩ : BufTy).Contents (Elt F)),
    StableHlo.nullary main_call6_c_1 ((constantI S1 32 99999#32) : (⟨S1, .i32⟩ : BufTy).Contents (Elt F)),
    StableHlo.nullary main_call6_c_2 ((constantI S_ 32 0#32) : (⟨S_, .i32⟩ : BufTy).Contents (Elt F)),
    StableHlo.unary main_call6_c_2 main_call6_v6 ((broadcastInDim S1200000x1 ![] bcast_S_S1200000x1) : (⟨S_, .i32⟩ : BufTy).Contents (Elt F) → (⟨S1200000x1, .i32⟩ : BufTy).Contents (Elt F)),
    StableHlo.binary main_call6_v5 main_call6_v6 main_call6_v7 ((cmpi .sge) : (⟨S1200000x1, .i32⟩ : BufTy).Contents (Elt F) → (⟨S1200000x1, .i32⟩ : BufTy).Contents (Elt F) → (⟨S1200000x1, .i1⟩ : BufTy).Contents (Elt F)),
    StableHlo.unary main_call6_c_1 main_call6_v8 ((broadcastInDim S1x1 ![1] bcast_S1_S1x1_1) : (⟨S1, .i32⟩ : BufTy).Contents (Elt F) → (⟨S1x1, .i32⟩ : BufTy).Contents (Elt F)),
    StableHlo.unary main_call6_v8 main_call6_v9 ((broadcastInDim S1200000x1 ![0, 1] bcast_S1x1_S1200000x1_0_1) : (⟨S1x1, .i32⟩ : BufTy).Contents (Elt F) → (⟨S1200000x1, .i32⟩ : BufTy).Contents (Elt F)),
    StableHlo.binary main_call6_v5 main_call6_v9 main_call6_v10 ((cmpi .sle) : (⟨S1200000x1, .i32⟩ : BufTy).Contents (Elt F) → (⟨S1200000x1, .i32⟩ : BufTy).Contents (Elt F) → (⟨S1200000x1, .i1⟩ : BufTy).Contents (Elt F)),
    StableHlo.binary main_call6_v7 main_call6_v10 main_call6_v11 (andi : (⟨S1200000x1, .i1⟩ : BufTy).Contents (Elt F) → (⟨S1200000x1, .i1⟩ : BufTy).Contents (Elt F) → (⟨S1200000x1, .i1⟩ : BufTy).Contents (Elt F)),
    StableHlo.nullary main_call6_c_3 ((constantI S_ 1 1#1) : (⟨S_, .i1⟩ : BufTy).Contents (Elt F)),
    StableHlo.binary main_call6_v11 main_call6_c_3 main_call6_v12 ((fun x v => Host.reduce IntOp.andi x v reducesTo_S1200000x1_S1200000_d1 h_S_) : (⟨S1200000x1, .i1⟩ : BufTy).Contents (Elt F) → (⟨S_, .i1⟩ : BufTy).Contents (Elt F) → (⟨S1200000, .i1⟩ : BufTy).Contents (Elt F)),
    StableHlo.binary main_v43 main_call6_v5 main_call6_v13 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_call6_v12 main_call6_v14 ((broadcastInDim S1200000x64 ![0] bcast_S1200000_S1200000x64_0) : (⟨S1200000, .i1⟩ : BufTy).Contents (Elt F) → (⟨S1200000x64, .i1⟩ : BufTy).Contents (Elt F)),
    StableHlo.nullary main_call6_cst ((constant S_ .f32 0x7FC00000#32) : (⟨S_, .f32⟩ : BufTy).Contents (Elt F)),
    StableHlo.unary main_call6_cst main_call6_v15 ((broadcastInDim S1200000x64 ![] bcast_S_S1200000x64) : (⟨S_, .f32⟩ : BufTy).Contents (Elt F) → (⟨S1200000x64, .f32⟩ : BufTy).Contents (Elt F)),
    StableHlo.ternary main_call6_v14 main_call6_v13 main_call6_v15 main_v44 (select : (⟨S1200000x64, .i1⟩ : BufTy).Contents (Elt F) → (⟨S1200000x64, .f32⟩ : BufTy).Contents (Elt F) → (⟨S1200000x64, .f32⟩ : BufTy).Contents (Elt F) → (⟨S1200000x64, .f32⟩ : BufTy).Contents (Elt F)) ]
theorem r13_sub : (r13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem r13_fresh : (r13 : List (HloOp τ sig (Elt F))).Forall fun op => op.fresh = ∅ := by
  simp only [List.Forall]; repeat' constructor

/-- 8 operations of @main, in order. -/
abbrev r14 : List (HloOp τ sig (Elt F)) :=
  [ StableHlo.nullary main_cst_6 (constant S_ .f32 0x00000000#32),
    StableHlo.unary main_cst_6 main_v45 (broadcastInDim S100000x64 ![] bcast_S_S100000x64 : (⟨S_, .f32⟩ : BufTy).Contents (Elt F) → (⟨S100000x64, .f32⟩ : BufTy).Contents (Elt F)),
    StableHlo.unary main_arg2 main_v46 (broadcastInDim S1200000x1 ![0] bcast_S1200000_S1200000x1_0 : (⟨S1200000, .i32⟩ : BufTy).Contents (Elt F) → (⟨S1200000x1, .i32⟩ : BufTy).Contents (Elt F)),
    StableHlo.ternary main_v45 main_v46 main_v44 main_v47 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_v10 main_v48 (broadcastInDim S100000x1 ![0] bcast_S100000_S100000x1_0 : (⟨S100000, .f32⟩ : BufTy).Contents (Elt F) → (⟨S100000x1, .f32⟩ : BufTy).Contents (Elt F)),
    StableHlo.unary main_v48 main_v49 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v49 main_v50 (mulf : (⟨S100000x64, .f32⟩ : BufTy).Contents (Elt F) → (⟨S100000x64, .f32⟩ : BufTy).Contents (Elt F) → (⟨S100000x64, .f32⟩ : BufTy).Contents (Elt F)),
    StableHlo.binary main_v50 main_arg7 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem r14_sub : (r14 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub ..⟩
theorem r14_fresh : (r14 : List (HloOp τ sig (Elt F))).Forall fun op => op.fresh = ∅ := by
  simp only [List.Forall]; repeat' constructor

/-- 16 operations of @main, in order. -/
abbrev r15 : List (HloOp τ sig (Elt F)) :=
  [ StableHlo.unary main_arg8 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v53 main_v54 (addf : (⟨S100000x64, .f32⟩ : BufTy).Contents (Elt F) → (⟨S100000x64, .f32⟩ : BufTy).Contents (Elt F) → (⟨S100000x64, .f32⟩ : BufTy).Contents (Elt F)),
    StableHlo.unary main_v54 main_v55 (Host.negf : (⟨S100000x64, .f32⟩ : BufTy).Contents (Elt F) → (⟨S100000x64, .f32⟩ : BufTy).Contents (Elt F)),
    StableHlo.unary main_v55 main_v56 (Host.exp : (⟨S100000x64, .f32⟩ : BufTy).Contents (Elt F) → (⟨S100000x64, .f32⟩ : BufTy).Contents (Elt F)),
    StableHlo.nullary main_cst_7 (constant S_ .f32 0x3F800000#32),
    StableHlo.unary main_cst_7 main_v57 (broadcastInDim S100000x64 ![] bcast_S_S100000x64 : (⟨S_, .f32⟩ : BufTy).Contents (Elt F) → (⟨S100000x64, .f32⟩ : BufTy).Contents (Elt F)),
    StableHlo.binary main_v57 main_v56 main_v58 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3F800000#32),
    StableHlo.unary main_cst_8 main_v59 (broadcastInDim S100000x64 ![] bcast_S_S100000x64 : (⟨S_, .f32⟩ : BufTy).Contents (Elt F) → (⟨S100000x64, .f32⟩ : BufTy).Contents (Elt F)),
    StableHlo.binary main_v59 main_v58 main_v60 (Host.divf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3F000000#32),
    StableHlo.unary main_cst_9 main_v61 (broadcastInDim S100000x64 ![] bcast_S_S100000x64 : (⟨S_, .f32⟩ : BufTy).Contents (Elt F) → (⟨S100000x64, .f32⟩ : BufTy).Contents (Elt F)),
    StableHlo.binary main_v60 main_v61 main_v62 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_10 (constant S_ .f32 0x3F800000#32),
    StableHlo.nullary main_cst_11 (constant S_ .f32 0x00000000#32) ]
theorem r15_sub : (r15 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
theorem r15_fresh : (r15 : List (HloOp τ sig (Elt F))).Forall fun op => op.fresh = ∅ := by
  simp only [List.Forall]; repeat' constructor

/-- 3 operations of @where_0 (main_call7), in order. -/
abbrev r16 : List (HloOp τ sig (Elt F)) :=
  [ StableHlo.unary main_cst_10 main_call7_v0 ((broadcastInDim S100000x64 ![] bcast_S_S100000x64) : (⟨S_, .f32⟩ : BufTy).Contents (Elt F) → (⟨S100000x64, .f32⟩ : BufTy).Contents (Elt F)),
    StableHlo.unary main_cst_11 main_call7_v1 ((broadcastInDim S100000x64 ![] bcast_S_S100000x64) : (⟨S_, .f32⟩ : BufTy).Contents (Elt F) → (⟨S100000x64, .f32⟩ : BufTy).Contents (Elt F)),
    StableHlo.ternary main_v62 main_call7_v0 main_call7_v1 main_v63 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]
theorem r16_sub : (r16 : List (HloOp τ sig (Elt F))).Forall fun op => op.bufs ⊆ StableHlo.tcRefs τ sig :=
  ⟨StableHlo.unary_bufs_sub .., StableHlo.unary_bufs_sub .., StableHlo.ternary_bufs_sub ..⟩
theorem r16_fresh : (r16 : List (HloOp τ sig (Elt F))).Forall fun op => op.fresh = ∅ := by
  simp only [List.Forall]; repeat' constructor

/-- 1 operations of @main, in order. -/
abbrev r17 : List (HloOp τ sig (Elt F)) :=
  [ StableHlo.unary main_v63 main_v64 (id : (⟨S100000x64, .f32⟩ : BufTy).Contents (Elt F) → (⟨S100000x64, .f32⟩ : BufTy).Contents (Elt F)) ]
theorem r17_sub : (r17 : List (HloOp τ sig (Elt F))).Forall fun op => op.bufs ⊆ StableHlo.tcRefs τ sig :=
  StableHlo.unary_bufs_sub ..
theorem r17_fresh : (r17 : List (HloOp τ sig (Elt F))).Forall fun op => op.fresh = ∅ := by
  simp only [List.Forall]; repeat' constructor

/-- The number of chunks: 18. -/
abbrev chunks : List (List (HloOp τ sig (Elt F))) := [r0, r1, r2, r3, r4, r5, r6, r7, r8, r9, r10, r11, r12, r13, r14, r15, r16, r17]

end Cert.ReferenceIdeal.Hand

end
-- ==== Proof.RRun.lean ====
/-
  The reference program's run. Its @main is a straight line of host operations (the outlined functions `clip`, `_take`,
  `_where`, `relu` inlined at their calls): listed in chunks, @main is the chain of the chunks' straight lines, a chain of
  straight lines is the straight line of their concatenation, and a straight line run from a memory with zero counters
  terminates with every buffer at the fold of the operations' results over the launch contents.
-/
import proofs.«404706_j76201309766164_1_alg».proof.Proof.RLists
import Idealize.ShloMosaic.Lib.Pipeline.Regions
import proofs.«404706_j76201309766164_1_alg».proof.Proof.LibAfter

set_option maxRecDepth 16384

noncomputable section

namespace Cert.ReferenceIdeal.Hand

open Idealize.ShloMosaic Idealize.ShloMosaic.TcCoe Idealize.SL.Sem Idealize.ShloMosaic.StableHlo Idealize.ShloMosaic.Pipeline
open Cert.ReferenceIdeal Cert.ReferenceIdeal.Facts₀

variable {F : FTy → Type} [FloatOps F]

/-- The program's label signature (it launches no kernel). -/
abbrev Λr (F : FTy → Type) [FloatOps F] : Labels := Pipeline.Sig Λ₀ (Fin 0) fun p => (pcfgs (F := F) p).Adm

/-- A chain of straight lines is the straight line of their concatenation. -/
theorem chain_seqs : ∀ ls : List (List (HloOp τ sig (Elt F))),
    Pipeline.chain (ls.map fun l => (StableHlo.seq l : Prog (TpuEff nD τ sig (Elt F) (Λr F) .tc) PUnit)) = StableHlo.seq ls.flatten
  | [] => rfl
  | l :: ls => by
    rw [List.map_cons, Pipeline.chain_cons, chain_seqs ls, List.flatten_cons, StableHlo.seq_append]

/-- All of @main's operations, in order. -/
abbrev ops : List (HloOp τ sig (Elt F)) := (chunks (F := F)).flatten

/-- @main is the chain of the chunks' straight lines: the functions' bodies unfold at their calls, the records at their
    fields, and both sides are one sequence of the same steps. -/
theorem main_chain (c : Dev nD) :
    main (F := F) c = Pipeline.chain ((chunks (F := F)).map fun l => (StableHlo.seq l : Prog (TpuEff nD τ sig (Elt F) (Λr F) .tc) PUnit)) := by
  chain_rfl

theorem main_eq (c : Dev nD) : main (F := F) c = StableHlo.seq (ops (F := F)) := (main_chain c).trans (chain_seqs _)

theorem ops_sub : (ops (F := F)).Forall fun op => op.bufs ⊆ StableHlo.tcRefs τ sig :=
  Cert.Lib.forall_flatten _ ⟨r0_sub, r1_sub, r2_sub, r3_sub, r4_sub, r5_sub, r6_sub, r7_sub, r8_sub, r9_sub, r10_sub, r11_sub, r12_sub, r13_sub,
    r14_sub, r15_sub, r16_sub, r17_sub⟩

theorem ops_fresh : (ops (F := F)).Forall fun op => op.fresh = ∅ :=
  Cert.Lib.forall_flatten _ ⟨r0_fresh, r1_fresh, r2_fresh, r3_fresh, r4_fresh, r5_fresh, r6_fresh, r7_fresh, r8_fresh, r9_fresh, r10_fresh, r11_fresh,
    r12_fresh, r13_fresh, r14_fresh, r15_fresh, r16_fresh, r17_fresh⟩

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after (ops (F := F)) (StableHlo.launchContents m c) (Proc.devRef .tc b) :=
  StableHlo.run_seq scopedRefs_eq scopedSems_eq defs main (fun _ => ops) main_eq (fun _ => ops_sub) m ρ
    (fun _ => List.forall_iff_forall_mem.mp ops_fresh)

end Cert.ReferenceIdeal.Hand

end
-- ==== Proof.RHostA.lean ====
/-
  The reference's operations up to the end of its first layer: the two degree normalisers, and the first layer's output as the host operations spell it (the dot product of the normalised neighbourhood sum with the weights, plus the bias row, clipped below at 0). The argument arrays stay as they were.
-/
import proofs.«404706_j76201309766164_1_alg».proof.Proof.RLists
import proofs.«404706_j76201309766164_1_alg».proof.Proof.Spec

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

attribute [local irreducible] Host.gather Host.reduce Host.scatterAdd

/-- The operations up to the end of the first layer, in order. -/
abbrev gA : List (HloOp τ sig (Elt F)) := r0 ++ (r1 ++ (r2 ++ (r3 ++ (r4 ++ (r5 ++ (r6 ++ r7))))))

local macro "gA_fold" : tactic => `(tactic|
  (simp only [gA, r0, r1, r2, r3, r4, r5, r6, r7, List.cons_append, List.nil_append]
   after_results_simp
   all_goals rfl))

theorem gA_v8 (W : Valuation τ sig (Elt F)) :
    StableHlo.after (gA (F := F)) W (Proc.devRef .tc main_v8) = (Cert.Spec.degNorm (W (Proc.devRef .tc main_arg1)) : FVec F S100000 .f32) := by
  gA_fold
theorem gA_v10 (W : Valuation τ sig (Elt F)) :
    StableHlo.after (gA (F := F)) W (Proc.devRef .tc main_v10) = (Cert.Spec.degNorm (W (Proc.devRef .tc main_arg2)) : FVec F S100000 .f32) := by
  gA_fold
theorem gA_v25 (W : Valuation τ sig (Elt F)) :
    StableHlo.after (gA (F := F)) W (Proc.devRef .tc main_v25)
      = (maximumf (addf (Host.dotGeneral dot_S100000x64_S64x64_S100000x64_1_0_0_1_n_n none (Cert.Spec.aggregate (W (Proc.devRef .tc main_arg0)) (Cert.Spec.degNorm (W (Proc.devRef .tc main_arg1))) (Cert.Spec.degNorm (W (Proc.devRef .tc main_arg2))) (W (Proc.devRef .tc main_arg1)) (W (Proc.devRef .tc main_arg2)) : FVec F S100000x64 .f32) (W (Proc.devRef .tc main_arg3))) (broadcastInDim S100000x64 ![0, 1] bcast_S1x64_S100000x64_0_1 (broadcastInDim S1x64 ![1] bcast_S64_S1x64_1 (W (Proc.devRef .tc main_arg4))))) (broadcastInDim S100000x64 ![] bcast_S_S100000x64 (constant (F := F) S_ .f32 0x00000000#32)) : FVec F S100000x64 .f32) := by
  gA_fold
theorem gA_keep_arg0 (W : Valuation τ sig (Elt F)) :
    StableHlo.after (gA (F := F)) W (Proc.devRef .tc main_arg0) = W (Proc.devRef .tc main_arg0) := by
  gA_fold
theorem gA_keep_arg1 (W : Valuation τ sig (Elt F)) :
    StableHlo.after (gA (F := F)) W (Proc.devRef .tc main_arg1) = W (Proc.devRef .tc main_arg1) := by
  gA_fold
theorem gA_keep_arg2 (W : Valuation τ sig (Elt F)) :
    StableHlo.after (gA (F := F)) W (Proc.devRef .tc main_arg2) = W (Proc.devRef .tc main_arg2) := by
  gA_fold
theorem gA_keep_arg3 (W : Valuation τ sig (Elt F)) :
    StableHlo.after (gA (F := F)) W (Proc.devRef .tc main_arg3) = W (Proc.devRef .tc main_arg3) := by
  gA_fold
theorem gA_keep_arg4 (W : Valuation τ sig (Elt F)) :
    StableHlo.after (gA (F := F)) W (Proc.devRef .tc main_arg4) = W (Proc.devRef .tc main_arg4) := by
  gA_fold
theorem gA_keep_arg5 (W : Valuation τ sig (Elt F)) :
    StableHlo.after (gA (F := F)) W (Proc.devRef .tc main_arg5) = W (Proc.devRef .tc main_arg5) := by
  gA_fold
theorem gA_keep_arg6 (W : Valuation τ sig (Elt F)) :
    StableHlo.after (gA (F := F)) W (Proc.devRef .tc main_arg6) = W (Proc.devRef .tc main_arg6) := by
  gA_fold
theorem gA_keep_arg7 (W : Valuation τ sig (Elt F)) :
    StableHlo.after (gA (F := F)) W (Proc.devRef .tc main_arg7) = W (Proc.devRef .tc main_arg7) := by
  gA_fold
theorem gA_keep_arg8 (W : Valuation τ sig (Elt F)) :
    StableHlo.after (gA (F := F)) W (Proc.devRef .tc main_arg8) = W (Proc.devRef .tc main_arg8) := by
  gA_fold

end Cert.ReferenceIdeal.Hand

end
-- ==== Proof.RHostB.lean ====
/-
  The reference's second layer: the normalised neighbourhood sum of the first layer's output, its dot product with the second weights plus the bias row, clipped below at 0. The normalisers and the argument arrays stay as they were.
-/
import proofs.«404706_j76201309766164_1_alg».proof.Proof.RLists
import proofs.«404706_j76201309766164_1_alg».proof.Proof.Spec

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

attribute [local irreducible] Host.gather Host.reduce Host.scatterAdd

/-- The second layer's operations, in order. -/
abbrev gB : List (HloOp τ sig (Elt F)) := r8 ++ (r9 ++ (r10 ++ r11))

local macro "gB_fold" : tactic => `(tactic|
  (simp only [gB, r8, r9, r10, r11, List.cons_append, List.nil_append]
   after_results_simp
   all_goals rfl))

theorem gB_v40 (W : Valuation τ sig (Elt F)) :
    StableHlo.after (gB (F := F)) W (Proc.devRef .tc main_v40)
      = (maximumf (addf (Host.dotGeneral dot_S100000x64_S64x64_S100000x64_1_0_0_1_n_n none (Cert.Spec.aggregate (W (Proc.devRef .tc main_v25)) (W (Proc.devRef .tc main_v8)) (W (Proc.devRef .tc main_v10)) (W (Proc.devRef .tc main_arg1)) (W (Proc.devRef .tc main_arg2)) : FVec F S100000x64 .f32) (W (Proc.devRef .tc main_arg5))) (broadcastInDim S100000x64 ![0, 1] bcast_S1x64_S100000x64_0_1 (broadcastInDim S1x64 ![1] bcast_S64_S1x64_1 (W (Proc.devRef .tc main_arg6))))) (broadcastInDim S100000x64 ![] bcast_S_S100000x64 (constant (F := F) S_ .f32 0x00000000#32)) : FVec F S100000x64 .f32) := by
  gB_fold
theorem gB_keep_v8 (W : Valuation τ sig (Elt F)) :
    StableHlo.after (gB (F := F)) W (Proc.devRef .tc main_v8) = W (Proc.devRef .tc main_v8) := by
  gB_fold
theorem gB_keep_v10 (W : Valuation τ sig (Elt F)) :
    StableHlo.after (gB (F := F)) W (Proc.devRef .tc main_v10) = W (Proc.devRef .tc main_v10) := by
  gB_fold
theorem gB_keep_arg0 (W : Valuation τ sig (Elt F)) :
    StableHlo.after (gB (F := F)) W (Proc.devRef .tc main_arg0) = W (Proc.devRef .tc main_arg0) := by
  gB_fold
theorem gB_keep_arg1 (W : Valuation τ sig (Elt F)) :
    StableHlo.after (gB (F := F)) W (Proc.devRef .tc main_arg1) = W (Proc.devRef .tc main_arg1) := by
  gB_fold
theorem gB_keep_arg2 (W : Valuation τ sig (Elt F)) :
    StableHlo.after (gB (F := F)) W (Proc.devRef .tc main_arg2) = W (Proc.devRef .tc main_arg2) := by
  gB_fold
theorem gB_keep_arg3 (W : Valuation τ sig (Elt F)) :
    StableHlo.after (gB (F := F)) W (Proc.devRef .tc main_arg3) = W (Proc.devRef .tc main_arg3) := by
  gB_fold
theorem gB_keep_arg4 (W : Valuation τ sig (Elt F)) :
    StableHlo.after (gB (F := F)) W (Proc.devRef .tc main_arg4) = W (Proc.devRef .tc main_arg4) := by
  gB_fold
theorem gB_keep_arg5 (W : Valuation τ sig (Elt F)) :
    StableHlo.after (gB (F := F)) W (Proc.devRef .tc main_arg5) = W (Proc.devRef .tc main_arg5) := by
  gB_fold
theorem gB_keep_arg6 (W : Valuation τ sig (Elt F)) :
    StableHlo.after (gB (F := F)) W (Proc.devRef .tc main_arg6) = W (Proc.devRef .tc main_arg6) := by
  gB_fold
theorem gB_keep_arg7 (W : Valuation τ sig (Elt F)) :
    StableHlo.after (gB (F := F)) W (Proc.devRef .tc main_arg7) = W (Proc.devRef .tc main_arg7) := by
  gB_fold
theorem gB_keep_arg8 (W : Valuation τ sig (Elt F)) :
    StableHlo.after (gB (F := F)) W (Proc.devRef .tc main_arg8) = W (Proc.devRef .tc main_arg8) := by
  gB_fold

end Cert.ReferenceIdeal.Hand

end
-- ==== Proof.RHostC.lean ====
/-
  The reference's third layer: the normalised neighbourhood sum of the second layer's output, its dot product with the third weights plus the bias row, then 1/(1+e^(-·)) spelled as negate, exponential, add, divide; and the second result, 1 where that is at least 1/2 and 0 elsewhere. The argument arrays stay as they were.
-/
import proofs.«404706_j76201309766164_1_alg».proof.Proof.RLists
import proofs.«404706_j76201309766164_1_alg».proof.Proof.Spec

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

attribute [local irreducible] Host.gather Host.reduce Host.scatterAdd

/-- The third layer's operations and the comparison, in order. -/
abbrev gC : List (HloOp τ sig (Elt F)) := r12 ++ (r13 ++ (r14 ++ (r15 ++ (r16 ++ r17))))

local macro "gC_fold" : tactic => `(tactic|
  (simp only [gC, r12, r13, r14, r15, r16, r17, List.cons_append, List.nil_append]
   after_results_simp
   all_goals rfl))

theorem gC_v60 (W : Valuation τ sig (Elt F)) :
    StableHlo.after (gC (F := F)) W (Proc.devRef .tc main_v60)
      = (Host.divf (broadcastInDim S100000x64 ![] bcast_S_S100000x64 (constant (F := F) S_ .f32 0x3F800000#32)) (addf (broadcastInDim S100000x64 ![] bcast_S_S100000x64 (constant (F := F) S_ .f32 0x3F800000#32)) (Host.exp (Host.negf (addf (Host.dotGeneral dot_S100000x64_S64x64_S100000x64_1_0_0_1_n_n none (Cert.Spec.aggregate (W (Proc.devRef .tc main_v40)) (W (Proc.devRef .tc main_v8)) (W (Proc.devRef .tc main_v10)) (W (Proc.devRef .tc main_arg1)) (W (Proc.devRef .tc main_arg2)) : FVec F S100000x64 .f32) (W (Proc.devRef .tc main_arg7))) (broadcastInDim S100000x64 ![0, 1] bcast_S1x64_S100000x64_0_1 (broadcastInDim S1x64 ![1] bcast_S64_S1x64_1 (W (Proc.devRef .tc main_arg8)))))))) : FVec F S100000x64 .f32) := by
  gC_fold
theorem gC_v64 (W : Valuation τ sig (Elt F)) :
    StableHlo.after (gC (F := F)) W (Proc.devRef .tc main_v64)
      = (id (select (cmpf .oge (Host.divf (broadcastInDim S100000x64 ![] bcast_S_S100000x64 (constant (F := F) S_ .f32 0x3F800000#32)) (addf (broadcastInDim S100000x64 ![] bcast_S_S100000x64 (constant (F := F) S_ .f32 0x3F800000#32)) (Host.exp (Host.negf (addf (Host.dotGeneral dot_S100000x64_S64x64_S100000x64_1_0_0_1_n_n none (Cert.Spec.aggregate (W (Proc.devRef .tc main_v40)) (W (Proc.devRef .tc main_v8)) (W (Proc.devRef .tc main_v10)) (W (Proc.devRef .tc main_arg1)) (W (Proc.devRef .tc main_arg2)) : FVec F S100000x64 .f32) (W (Proc.devRef .tc main_arg7))) (broadcastInDim S100000x64 ![0, 1] bcast_S1x64_S100000x64_0_1 (broadcastInDim S1x64 ![1] bcast_S64_S1x64_1 (W (Proc.devRef .tc main_arg8))))))))) (broadcastInDim S100000x64 ![] bcast_S_S100000x64 (constant (F := F) S_ .f32 0x3F000000#32))) (broadcastInDim S100000x64 ![] bcast_S_S100000x64 (constant (F := F) S_ .f32 0x3F800000#32)) (broadcastInDim S100000x64 ![] bcast_S_S100000x64 (constant (F := F) S_ .f32 0x00000000#32))) : FVec F S100000x64 .f32) := by
  gC_fold
theorem gC_keep_arg0 (W : Valuation τ sig (Elt F)) :
    StableHlo.after (gC (F := F)) W (Proc.devRef .tc main_arg0) = W (Proc.devRef .tc main_arg0) := by
  gC_fold
theorem gC_keep_arg1 (W : Valuation τ sig (Elt F)) :
    StableHlo.after (gC (F := F)) W (Proc.devRef .tc main_arg1) = W (Proc.devRef .tc main_arg1) := by
  gC_fold
theorem gC_keep_arg2 (W : Valuation τ sig (Elt F)) :
    StableHlo.after (gC (F := F)) W (Proc.devRef .tc main_arg2) = W (Proc.devRef .tc main_arg2) := by
  gC_fold
theorem gC_keep_arg3 (W : Valuation τ sig (Elt F)) :
    StableHlo.after (gC (F := F)) W (Proc.devRef .tc main_arg3) = W (Proc.devRef .tc main_arg3) := by
  gC_fold
theorem gC_keep_arg4 (W : Valuation τ sig (Elt F)) :
    StableHlo.after (gC (F := F)) W (Proc.devRef .tc main_arg4) = W (Proc.devRef .tc main_arg4) := by
  gC_fold
theorem gC_keep_arg5 (W : Valuation τ sig (Elt F)) :
    StableHlo.after (gC (F := F)) W (Proc.devRef .tc main_arg5) = W (Proc.devRef .tc main_arg5) := by
  gC_fold
theorem gC_keep_arg6 (W : Valuation τ sig (Elt F)) :
    StableHlo.after (gC (F := F)) W (Proc.devRef .tc main_arg6) = W (Proc.devRef .tc main_arg6) := by
  gC_fold
theorem gC_keep_arg7 (W : Valuation τ sig (Elt F)) :
    StableHlo.after (gC (F := F)) W (Proc.devRef .tc main_arg7) = W (Proc.devRef .tc main_arg7) := by
  gC_fold
theorem gC_keep_arg8 (W : Valuation τ sig (Elt F)) :
    StableHlo.after (gC (F := F)) W (Proc.devRef .tc main_arg8) = W (Proc.devRef .tc main_arg8) := by
  gC_fold

end Cert.ReferenceIdeal.Hand

end
-- ==== Proof.RDense.lean ====
/-
  The reference's dense layers, as its host operations spell them, are the specification's whole-array functions.
  a is the 100000×64 block of aggregated features, w a 64×64 weight matrix, b a bias vector of length 64.
  The reference forms a·w by a plain matrix product (entry (p, q) the sum over c of a(p,c)·w(c,q)), lays b along a
  1×64 row and repeats that row down the 100000 rows, and adds; then it takes max(·, 0) against a repeated scalar 0,
  or forms 1/(1 + e^(-·)) from repeated scalars 1 (the float word 0x3F800000 is the real number 1), or compares with a
  repeated 1/2 and selects between repeated 1 and 0. Read at an entry (p, q), each of these is the entry the
  specification's reluLayer, sigmoidLayer and threshold define; a scalar repeated to any shape reads the scalar, and
  the bias row reads the bias vector at q whichever way the unit axis was added.
-/
import proofs.«404706_j76201309766164_1_alg».proof.ReferenceIdeal
import proofs.«404706_j76201309766164_1_alg».proof.Proof.Gen.ReferenceIdeal
import proofs.«404706_j76201309766164_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import Idealize.ShloMosaic.Lib.IdealHost

noncomputable section

namespace Cert.ReferenceIdeal.Dense

open Idealize.ShloMosaic Idealize.ShloMosaic.ValueIdx
open Cert.ReferenceIdeal Cert.ReferenceIdeal.Facts₀

/-- The bias row of the specification read at entry (0, q) is the bias vector at q: adding a leading unit axis
    keeps the trailing coordinate. -/
theorem biasRow_apply (b : FVec Ideal S64 .f32) (q : Fin 64) :
    Cert.Spec.biasRow (F := Ideal) b (ix2 (0 : Fin 1) q) = b (ix1 q) := by
  unfold Cert.Spec.biasRow
  refine (shapeCast_addUnit_apply ![64] b _ (ix2 (0 : Fin 1) q)).trans ?_
  exact congrArg b (funext fun c => by match c with | ⟨0, _⟩ => rfl)

/-- The bias vector laid along a 1×64 row and that row repeated down the 100000 rows, read at entry (p, q), is
    the bias vector at q. -/
theorem bias_bcast_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  refine (broadcastInDim_apply ![0, 1] bcast_S1x64_S100000x64_0_1 _ (ix2 p q) (ix2 (0 : Fin 1) q) ?_).trans ?_
  · intro c
    match c with
    | ⟨0, _⟩ =>
      show (0 : ℕ) = if (1 : ℕ) = 1 then 0 else p.val
      rw [if_pos rfl]
    | ⟨1, _⟩ =>
      show q.val = if (64 : ℕ) = 1 then 0 else q.val
      rw [if_neg (by decide)]
  · refine broadcastInDim_apply ![1] bcast_S64_S1x64_1 b (ix2 (0 : Fin 1) q) (ix1 q) ?_
    intro c
    match c with
    | ⟨0, _⟩ =>
      show q.val = if (64 : ℕ) = 1 then 0 else q.val
      rw [if_neg (by decide)]

/-- The host's exponential and negation read at an index are the extended-real ones of the element. -/
theorem hostExp_apply {s : Shape} {φ : FTy} (x : FVec Ideal s φ) (i : s.Idx) : Host.exp x i = Ideal.exp (x i) := rfl

theorem hostNegf_apply {s : Shape} {φ : FTy} (x : FVec Ideal s φ) (i : s.Idx) : Host.negf x i = -(x i) := rfl

/-- The reference's a·w + b, read at entry (p, q), is the specification's. -/
theorem affine_eq_apply (a : FVec Ideal S100000x64 .f32) (w : FVec Ideal S64x64 .f32) (b : FVec Ideal S64 .f32)
    (p : Fin 100000) (q : Fin 64) :
    addf (Host.dotGeneral dot_S100000x64_S64x64_S100000x64_1_0_0_1_n_n none a w)
        (broadcastInDim S100000x64 ![0, 1] bcast_S1x64_S100000x64_0_1 (broadcastInDim S1x64 ![1] bcast_S64_S1x64_1 b)) (ix2 p q)
      = Cert.Spec.affine a w (Cert.Spec.biasRow b) (ix2 p q) := by
  rw [addf_apply, bias_bcast_apply, Cert.Spec.affine_apply, biasRow_apply]
  exact congrArg (· + b (ix1 q)) (StackMember.dotGeneral_plain_apply (m := 100000) (k := 64) (n := 64) none a w p q)

/-- max(a·w + b, 0): the reference's first two dense layers. -/
theorem relu_layer_eq (a : FVec Ideal S100000x64 .f32) (w : FVec Ideal S64x64 .f32) (b : FVec Ideal S64 .f32) :
    maximumf (addf (Host.dotGeneral dot_S100000x64_S64x64_S100000x64_1_0_0_1_n_n none a w)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Cert.Spec.reluLayer a w (Cert.Spec.biasRow b) := by
  funext i
  obtain ⟨p, q, rfl⟩ : ∃ (p : Fin 100000) (q : Fin 64), i = ix2 p q := ⟨i 0, i 1, eq_ix2 i⟩
  rw [maximumf_apply, affine_eq_apply, broadcastInDim_scalar_apply]
  rfl

/-- 1/(1 + e^(-(a·w + b))): the reference's last dense layer, spelt with negate, exponential, add and divide. -/
theorem sigmoid_layer_eq (a : FVec Ideal S100000x64 .f32) (w : FVec Ideal S64x64 .f32) (b : FVec Ideal S64 .f32) :
    Host.divf (broadcastInDim S100000x64 ![] bcast_S_S100000x64 (constant (F := Ideal) S_ .f32 0x3F800000#32))
      (addf (broadcastInDim S100000x64 ![] bcast_S_S100000x64 (constant (F := Ideal) S_ .f32 0x3F800000#32))
        (Host.exp (Host.negf (addf (Host.dotGeneral dot_S100000x64_S64x64_S100000x64_1_0_0_1_n_n none a w)
          (broadcastInDim S100000x64 ![0, 1] bcast_S1x64_S100000x64_0_1 (broadcastInDim S1x64 ![1] bcast_S64_S1x64_1 b))))))
      = Cert.Spec.sigmoidLayer a w (Cert.Spec.biasRow b) := by
  funext i
  obtain ⟨p, q, rfl⟩ : ∃ (p : Fin 100000) (q : Fin 64), i = ix2 p q := ⟨i 0, i 1, eq_ix2 i⟩
  rw [hostDivf_apply, addf_apply, broadcastInDim_scalar_apply, hostExp_apply, hostNegf_apply, affine_eq_apply,
    constant_apply, Ideal.ofBits_one_f32]
  rfl

/-- 1 where the entry is at least 1/2, else 0: the reference's comparison and selection. -/
theorem threshold_eq (h : FVec Ideal S100000x64 .f32) :
    id (select (cmpf .oge h (broadcastInDim S100000x64 ![] bcast_S_S100000x64 (constant (F := Ideal) S_ .f32 0x3F000000#32)))
        (broadcastInDim S100000x64 ![] bcast_S_S100000x64 (constant (F := Ideal) S_ .f32 0x3F800000#32))
        (broadcastInDim S100000x64 ![] bcast_S_S100000x64 (constant (F := Ideal) S_ .f32 0x00000000#32)))
      = Cert.Spec.threshold h := by
  funext i
  show select _ _ _ i = _
  rw [select_apply, cmpf_apply, broadcastInDim_scalar_apply, broadcastInDim_scalar_apply, broadcastInDim_scalar_apply]
  rfl

end Cert.ReferenceIdeal.Dense

end
-- ==== Proof.RValue.lean ====
/-
  The reference program's two results as functions of its argument arrays, at the ideal values.
  Its operations fall into three groups, one per layer, and running the groups one after another is running the whole
  list. The first group leaves the two degree normalisers and z₁ = max(a₁·W₁ + b₁, 0), a₁ the normalised neighbourhood sum
  of the input features; the second leaves z₂ = max(a₂·W₂ + b₂, 0), a₂ the neighbourhood sum of z₁ under the same
  normalisers; the third h = 1/(1+e^(-(a₃·W₃ + b₃))), a₃ the neighbourhood sum of z₂, and the comparison of h with 1/2.
  No group writes an argument array, and the later groups leave the normalisers as they were.
-/
import proofs.«404706_j76201309766164_1_alg».proof.Proof.RRun
import proofs.«404706_j76201309766164_1_alg».proof.Proof.RHostA
import proofs.«404706_j76201309766164_1_alg».proof.Proof.RHostB
import proofs.«404706_j76201309766164_1_alg».proof.Proof.RHostC
import proofs.«404706_j76201309766164_1_alg».proof.Proof.RDense

set_option maxRecDepth 16384

noncomputable section

namespace Cert.ReferenceIdeal.Net

open Idealize.ShloMosaic Idealize.ShloMosaic.TcCoe Idealize.SL.Sem Idealize.ShloMosaic.StableHlo
open Cert.ReferenceIdeal Cert.ReferenceIdeal.Facts₀ Cert.ReferenceIdeal.Hand Cert.ReferenceIdeal.Dense

variable (m : (ℓ : Loc nD τ sig) → Buf (Elt Ideal) ℓ)

/-! ## The whole list is the three groups in order -/

theorem after_ops (W : Valuation τ sig (Elt Ideal)) :
    StableHlo.after (ops (F := Ideal)) W = StableHlo.after gC (StableHlo.after gB (StableHlo.after gA W)) := by
  simp only [ops, chunks, gA, gB, gC, List.flatten_cons, List.flatten_nil, List.append_nil, Cert.Lib.after_append]

/-- The buffers after the first, the second and the third group, from the launch contents. -/
def WA (c : Dev nD) : Valuation τ sig (Elt Ideal) := StableHlo.after gA (StableHlo.launchContents m c)
def WB (c : Dev nD) : Valuation τ sig (Elt Ideal) := StableHlo.after gB (WA m c)
def WC (c : Dev nD) : Valuation τ sig (Elt Ideal) := StableHlo.after gC (WB m c)
theorem WA_eq (c : Dev nD) : WA m c = StableHlo.after gA (StableHlo.launchContents m c) := rfl
theorem WB_eq (c : Dev nD) : WB m c = StableHlo.after gB (WA m c) := rfl
theorem WC_eq (c : Dev nD) : WC m c = StableHlo.after gC (WB m c) := rfl

/-! ## The arguments as launched, and the layers -/

abbrev x (c : Dev nD) : FVec Ideal S100000x64 .f32 := StableHlo.launchContents m c (Proc.devRef .tc main_arg0)
abbrev src (c : Dev nD) : IVec S1200000 32 := StableHlo.launchContents m c (Proc.devRef .tc main_arg1)
abbrev dst (c : Dev nD) : IVec S1200000 32 := StableHlo.launchContents m c (Proc.devRef .tc main_arg2)
abbrev w1 (c : Dev nD) : FVec Ideal S64x64 .f32 := StableHlo.launchContents m c (Proc.devRef .tc main_arg3)
abbrev b1 (c : Dev nD) : FVec Ideal S64 .f32 := StableHlo.launchContents m c (Proc.devRef .tc main_arg4)
abbrev w2 (c : Dev nD) : FVec Ideal S64x64 .f32 := StableHlo.launchContents m c (Proc.devRef .tc main_arg5)
abbrev b2 (c : Dev nD) : FVec Ideal S64 .f32 := StableHlo.launchContents m c (Proc.devRef .tc main_arg6)
abbrev w3 (c : Dev nD) : FVec Ideal S64x64 .f32 := StableHlo.launchContents m c (Proc.devRef .tc main_arg7)
abbrev b3 (c : Dev nD) : FVec Ideal S64 .f32 := StableHlo.launchContents m c (Proc.devRef .tc main_arg8)

/-- The source-side and destination-side degree normalisers. -/
def ns (c : Dev nD) : FVec Ideal S100000 .f32 := Cert.Spec.degNorm (src m c)
def nd (c : Dev nD) : FVec Ideal S100000 .f32 := Cert.Spec.degNorm (dst m c)
/-- The three layers' outputs. -/
def z1 (c : Dev nD) : FVec Ideal S100000x64 .f32 :=
  Cert.Spec.reluLayer (Cert.Spec.aggregate (x m c) (ns m c) (nd m c) (src m c) (dst m c)) (w1 m c) (Cert.Spec.biasRow (b1 m c))
def z2 (c : Dev nD) : FVec Ideal S100000x64 .f32 :=
  Cert.Spec.reluLayer (Cert.Spec.aggregate (z1 m c) (ns m c) (nd m c) (src m c) (dst m c)) (w2 m c) (Cert.Spec.biasRow (b2 m c))
def z3 (c : Dev nD) : FVec Ideal S100000x64 .f32 :=
  Cert.Spec.sigmoidLayer (Cert.Spec.aggregate (z2 m c) (ns m c) (nd m c) (src m c) (dst m c)) (w3 m c) (Cert.Spec.biasRow (b3 m c))

theorem z3_eq_net (c : Dev nD) :
    z3 m c = Cert.Spec.net (x m c) (src m c) (dst m c) (w1 m c) (b1 m c) (w2 m c) (b2 m c) (w3 m c) (b3 m c) := rfl

/-! ## After the first group -/

theorem a_arg0 (c : Dev nD) : WA m c (Proc.devRef .tc main_arg0) = StableHlo.launchContents m c (Proc.devRef .tc main_arg0) := by rw [WA_eq, gA_keep_arg0]
theorem a_arg1 (c : Dev nD) : WA m c (Proc.devRef .tc main_arg1) = StableHlo.launchContents m c (Proc.devRef .tc main_arg1) := by rw [WA_eq, gA_keep_arg1]
theorem a_arg2 (c : Dev nD) : WA m c (Proc.devRef .tc main_arg2) = StableHlo.launchContents m c (Proc.devRef .tc main_arg2) := by rw [WA_eq, gA_keep_arg2]
theorem a_arg3 (c : Dev nD) : WA m c (Proc.devRef .tc main_arg3) = StableHlo.launchContents m c (Proc.devRef .tc main_arg3) := by rw [WA_eq, gA_keep_arg3]
theorem a_arg4 (c : Dev nD) : WA m c (Proc.devRef .tc main_arg4) = StableHlo.launchContents m c (Proc.devRef .tc main_arg4) := by rw [WA_eq, gA_keep_arg4]
theorem a_arg5 (c : Dev nD) : WA m c (Proc.devRef .tc main_arg5) = StableHlo.launchContents m c (Proc.devRef .tc main_arg5) := by rw [WA_eq, gA_keep_arg5]
theorem a_arg6 (c : Dev nD) : WA m c (Proc.devRef .tc main_arg6) = StableHlo.launchContents m c (Proc.devRef .tc main_arg6) := by rw [WA_eq, gA_keep_arg6]
theorem a_arg7 (c : Dev nD) : WA m c (Proc.devRef .tc main_arg7) = StableHlo.launchContents m c (Proc.devRef .tc main_arg7) := by rw [WA_eq, gA_keep_arg7]
theorem a_arg8 (c : Dev nD) : WA m c (Proc.devRef .tc main_arg8) = StableHlo.launchContents m c (Proc.devRef .tc main_arg8) := by rw [WA_eq, gA_keep_arg8]
theorem a_v8 (c : Dev nD) : WA m c (Proc.devRef .tc main_v8) = ns m c := by rw [WA_eq, gA_v8]; rfl
theorem a_v10 (c : Dev nD) : WA m c (Proc.devRef .tc main_v10) = nd m c := by rw [WA_eq, gA_v10]; rfl
theorem a_v25 (c : Dev nD) : WA m c (Proc.devRef .tc main_v25) = z1 m c := by
  rw [WA_eq, gA_v25]
  exact relu_layer_eq _ _ _

/-! ## After the second group -/

theorem b_arg0 (c : Dev nD) : WB m c (Proc.devRef .tc main_arg0) = StableHlo.launchContents m c (Proc.devRef .tc main_arg0) := by rw [WB_eq, gB_keep_arg0, a_arg0]
theorem b_arg1 (c : Dev nD) : WB m c (Proc.devRef .tc main_arg1) = StableHlo.launchContents m c (Proc.devRef .tc main_arg1) := by rw [WB_eq, gB_keep_arg1, a_arg1]
theorem b_arg2 (c : Dev nD) : WB m c (Proc.devRef .tc main_arg2) = StableHlo.launchContents m c (Proc.devRef .tc main_arg2) := by rw [WB_eq, gB_keep_arg2, a_arg2]
theorem b_arg3 (c : Dev nD) : WB m c (Proc.devRef .tc main_arg3) = StableHlo.launchContents m c (Proc.devRef .tc main_arg3) := by rw [WB_eq, gB_keep_arg3, a_arg3]
theorem b_arg4 (c : Dev nD) : WB m c (Proc.devRef .tc main_arg4) = StableHlo.launchContents m c (Proc.devRef .tc main_arg4) := by rw [WB_eq, gB_keep_arg4, a_arg4]
theorem b_arg5 (c : Dev nD) : WB m c (Proc.devRef .tc main_arg5) = StableHlo.launchContents m c (Proc.devRef .tc main_arg5) := by rw [WB_eq, gB_keep_arg5, a_arg5]
theorem b_arg6 (c : Dev nD) : WB m c (Proc.devRef .tc main_arg6) = StableHlo.launchContents m c (Proc.devRef .tc main_arg6) := by rw [WB_eq, gB_keep_arg6, a_arg6]
theorem b_arg7 (c : Dev nD) : WB m c (Proc.devRef .tc main_arg7) = StableHlo.launchContents m c (Proc.devRef .tc main_arg7) := by rw [WB_eq, gB_keep_arg7, a_arg7]
theorem b_arg8 (c : Dev nD) : WB m c (Proc.devRef .tc main_arg8) = StableHlo.launchContents m c (Proc.devRef .tc main_arg8) := by rw [WB_eq, gB_keep_arg8, a_arg8]
theorem b_v8 (c : Dev nD) : WB m c (Proc.devRef .tc main_v8) = ns m c := by rw [WB_eq, gB_keep_v8, a_v8]
theorem b_v10 (c : Dev nD) : WB m c (Proc.devRef .tc main_v10) = nd m c := by rw [WB_eq, gB_keep_v10, a_v10]
theorem b_v40 (c : Dev nD) : WB m c (Proc.devRef .tc main_v40) = z2 m c := by
  rw [WB_eq, gB_v40, a_v25, a_v8, a_v10, a_arg1, a_arg2, a_arg5, a_arg6]
  exact relu_layer_eq _ _ _

/-! ## After the third group: the two results -/

theorem c_arg0 (c : Dev nD) : WC m c (Proc.devRef .tc main_arg0) = StableHlo.launchContents m c (Proc.devRef .tc main_arg0) := by rw [WC_eq, gC_keep_arg0, b_arg0]
theorem c_arg1 (c : Dev nD) : WC m c (Proc.devRef .tc main_arg1) = StableHlo.launchContents m c (Proc.devRef .tc main_arg1) := by rw [WC_eq, gC_keep_arg1, b_arg1]
theorem c_arg2 (c : Dev nD) : WC m c (Proc.devRef .tc main_arg2) = StableHlo.launchContents m c (Proc.devRef .tc main_arg2) := by rw [WC_eq, gC_keep_arg2, b_arg2]
theorem c_arg3 (c : Dev nD) : WC m c (Proc.devRef .tc main_arg3) = StableHlo.launchContents m c (Proc.devRef .tc main_arg3) := by rw [WC_eq, gC_keep_arg3, b_arg3]
theorem c_arg4 (c : Dev nD) : WC m c (Proc.devRef .tc main_arg4) = StableHlo.launchContents m c (Proc.devRef .tc main_arg4) := by rw [WC_eq, gC_keep_arg4, b_arg4]
theorem c_arg5 (c : Dev nD) : WC m c (Proc.devRef .tc main_arg5) = StableHlo.launchContents m c (Proc.devRef .tc main_arg5) := by rw [WC_eq, gC_keep_arg5, b_arg5]
theorem c_arg6 (c : Dev nD) : WC m c (Proc.devRef .tc main_arg6) = StableHlo.launchContents m c (Proc.devRef .tc main_arg6) := by rw [WC_eq, gC_keep_arg6, b_arg6]
theorem c_arg7 (c : Dev nD) : WC m c (Proc.devRef .tc main_arg7) = StableHlo.launchContents m c (Proc.devRef .tc main_arg7) := by rw [WC_eq, gC_keep_arg7, b_arg7]
theorem c_arg8 (c : Dev nD) : WC m c (Proc.devRef .tc main_arg8) = StableHlo.launchContents m c (Proc.devRef .tc main_arg8) := by rw [WC_eq, gC_keep_arg8, b_arg8]
theorem c_v60 (c : Dev nD) : WC m c (Proc.devRef .tc main_v60) = z3 m c := by
  rw [WC_eq, gC_v60, b_v40, b_v8, b_v10, b_arg1, b_arg2, b_arg7, b_arg8]
  exact sigmoid_layer_eq _ _ _
theorem c_v64 (c : Dev nD) : WC m c (Proc.devRef .tc main_v64) = Cert.Spec.threshold (z3 m c) := by
  rw [WC_eq, gC_v64, b_v40, b_v8, b_v10, b_arg1, b_arg2, b_arg7, b_arg8, sigmoid_layer_eq]
  exact threshold_eq _

/-! ## The run -/

theorem res_v60 (c : Dev nD) : StableHlo.after (ops (F := Ideal)) (StableHlo.launchContents m c) (Proc.devRef .tc main_v60) = z3 m c := by
  rw [after_ops]; exact c_v60 m c
theorem res_v64 (c : Dev nD) : StableHlo.after (ops (F := Ideal)) (StableHlo.launchContents m c) (Proc.devRef .tc main_v64) = Cert.Spec.threshold (z3 m c) := by
  rw [after_ops]; exact c_v64 m c
theorem res_arg0 (c : Dev nD) : StableHlo.after (ops (F := Ideal)) (StableHlo.launchContents m c) (Proc.devRef .tc main_arg0) = m ((c.tc : Thread nD τ).loc main_arg0) := by
  rw [after_ops]; exact c_arg0 m c
theorem res_arg1 (c : Dev nD) : StableHlo.after (ops (F := Ideal)) (StableHlo.launchContents m c) (Proc.devRef .tc main_arg1) = m ((c.tc : Thread nD τ).loc main_arg1) := by
  rw [after_ops]; exact c_arg1 m c
theorem res_arg2 (c : Dev nD) : StableHlo.after (ops (F := Ideal)) (StableHlo.launchContents m c) (Proc.devRef .tc main_arg2) = m ((c.tc : Thread nD τ).loc main_arg2) := by
  rw [after_ops]; exact c_arg2 m c
theorem res_arg3 (c : Dev nD) : StableHlo.after (ops (F := Ideal)) (StableHlo.launchContents m c) (Proc.devRef .tc main_arg3) = m ((c.tc : Thread nD τ).loc main_arg3) := by
  rw [after_ops]; exact c_arg3 m c
theorem res_arg4 (c : Dev nD) : StableHlo.after (ops (F := Ideal)) (StableHlo.launchContents m c) (Proc.devRef .tc main_arg4) = m ((c.tc : Thread nD τ).loc main_arg4) := by
  rw [after_ops]; exact c_arg4 m c
theorem res_arg5 (c : Dev nD) : StableHlo.after (ops (F := Ideal)) (StableHlo.launchContents m c) (Proc.devRef .tc main_arg5) = m ((c.tc : Thread nD τ).loc main_arg5) := by
  rw [after_ops]; exact c_arg5 m c
theorem res_arg6 (c : Dev nD) : StableHlo.after (ops (F := Ideal)) (StableHlo.launchContents m c) (Proc.devRef .tc main_arg6) = m ((c.tc : Thread nD τ).loc main_arg6) := by
  rw [after_ops]; exact c_arg6 m c
theorem res_arg7 (c : Dev nD) : StableHlo.after (ops (F := Ideal)) (StableHlo.launchContents m c) (Proc.devRef .tc main_arg7) = m ((c.tc : Thread nD τ).loc main_arg7) := by
  rw [after_ops]; exact c_arg7 m c
theorem res_arg8 (c : Dev nD) : StableHlo.after (ops (F := Ideal)) (StableHlo.launchContents m c) (Proc.devRef .tc main_arg8) = m ((c.tc : Thread nD τ).loc main_arg8) := by
  rw [after_ops]; exact c_arg8 m c

/-- Every weakly fair execution of @main terminates without a fault; the first result is the three-layer network of the
    arguments, the second its comparison with 1/2, and the arguments end as launched. -/
theorem run (ρ : Dev nD → PrngReg) : θ_run defs (onTc (τ := τ) (main (F := Ideal))) ⟨m, fun _ => 0, ρ⟩ (fun r => ∀ c : Dev nD,
      r.2.mem ((c.tc : Thread nD τ).loc main_v60) = z3 m c
      ∧ r.2.mem ((c.tc : Thread nD τ).loc main_v64) = Cert.Spec.threshold (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c main_v60).trans (res_v60 m c), (h c main_v64).trans (res_v64 m c),
    (h c main_arg0).trans (res_arg0 m c),
    (h c main_arg1).trans (res_arg1 m c),
    (h c main_arg2).trans (res_arg2 m c),
    (h c main_arg3).trans (res_arg3 m c),
    (h c main_arg4).trans (res_arg4 m c),
    (h c main_arg5).trans (res_arg5 m c),
    (h c main_arg6).trans (res_arg6 m c),
    (h c main_arg7).trans (res_arg7 m c),
    (h c main_arg8).trans (res_arg8 m c)⟩) (run_main m ρ)

end Cert.ReferenceIdeal.Net

end
-- ==== Proof.Claims.lean ====
/-
  The five claims.
  The two kernel programs' frames are the generated ones. The reference has no kernel: its frame is its run with the two
  results dropped. The idealization rewrote nothing, so there is nothing to preserve.
  For the equivalence: the kernel program's first result is the three-layer network of its argument arrays and the second
  that network compared with 1/2; the reference's two results are the same two functions of ITS argument arrays; and the
  two programs start from memories that agree on the nine arguments, so the functions are applied to equal arrays.
-/
import proofs.«404706_j76201309766164_1_alg».proof.Proof.KValue
import proofs.«404706_j76201309766164_1_alg».proof.Proof.RValue
import proofs.«404706_j76201309766164_1_alg».proof.Defs
import proofs.«404706_j76201309766164_1_alg».proof.Proof.Gen.Kernel.Frame
import proofs.«404706_j76201309766164_1_alg».proof.Proof.Gen.KernelIdeal.Frame
import proofs.«404706_j76201309766164_1_alg».proof.Proof.Gen.Pre_finite_inputs

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Net.run m ρ)

theorem preserves : Cert.preserves_Kernel_KernelIdeal := trivial

/-- From memories that agree on the arguments both programs end with the network of those arguments as first result
    and its comparison with 1/2 as second. -/
theorem algebraic : Cert.algebraic_KernelIdeal_ReferenceIdeal := by
  intro m ρ m' ρ' _ hagree
  have key : ∀ c, Cert.ReferenceIdeal.Net.z3 m' c = Cert.KernelIdeal.Net.z3 m ρ c := by
    intro c
    obtain ⟨h0, h1, h2, h3, h4, h5, h6, h7, h8⟩ := hagree c
    have e0 : Cert.ReferenceIdeal.Net.x m' c = Cert.KernelIdeal.Net.x m ρ c := h0
    have e1 : Cert.ReferenceIdeal.Net.src m' c = Cert.KernelIdeal.Net.src m ρ c := h1
    have e2 : Cert.ReferenceIdeal.Net.dst m' c = Cert.KernelIdeal.Net.dst m ρ c := h2
    have e3 : Cert.ReferenceIdeal.Net.w1 m' c = Cert.KernelIdeal.Net.w1 m ρ c := h3
    have e4 : Cert.ReferenceIdeal.Net.b1 m' c = Cert.KernelIdeal.Net.b1 m ρ c := h4
    have e5 : Cert.ReferenceIdeal.Net.w2 m' c = Cert.KernelIdeal.Net.w2 m ρ c := h5
    have e6 : Cert.ReferenceIdeal.Net.b2 m' c = Cert.KernelIdeal.Net.b2 m ρ c := h6
    have e7 : Cert.ReferenceIdeal.Net.w3 m' c = Cert.KernelIdeal.Net.w3 m ρ c := h7
    have e8 : Cert.ReferenceIdeal.Net.b3 m' c = Cert.KernelIdeal.Net.b3 m ρ c := h8
    rw [Cert.ReferenceIdeal.Net.z3_eq_net, Cert.KernelIdeal.Net.z3_eq_net, e0, e1, e2, e3, e4, e5, e6, e7, e8]
  refine ⟨fun c => Cert.KernelIdeal.Net.z3 m ρ c, fun c => Cert.Spec.threshold (Cert.KernelIdeal.Net.z3 m ρ c), Cert.KernelIdeal.Net.run m ρ, ?_⟩
  exact (θ_run Cert.ReferenceIdeal.defs _ _).mono
    (fun r h c => ⟨(h c).1.trans (key c), (h c).2.1.trans (congrArg Cert.Spec.threshold (key c)), (h c).2.2⟩)
    (Cert.ReferenceIdeal.Net.run m' ρ')

end Cert.Proof.Claims

end
-- ==== Proof.lean ====
/-
  Graph convolution over 100000 nodes and 1200000 edges, three layers of width 64 (relu, relu, sigmoid) and the last
  layer compared with 1/2: the kernel program computes the dense layers in three kernel regions and everything else on the
  host; the reference computes everything on the host. At the ideal values both end with the same two arrays: each
  layer is D_dst^(-1/2) A D_src^(-1/2) z W + b entry by entry, a matrix product into a zero accumulator being the plain sum
  over the contracted axis, and 1/(1+e^(-t)) being the kernel's logistic function of t.
  The claims are proved in Proof/Claims.lean; the witnesses of the programs' stated facts are the generated instances.
-/
import proofs.«404706_j76201309766164_1_alg».proof.Defs
import proofs.«404706_j76201309766164_1_alg».proof.Proof.Gen.Kernel
import proofs.«404706_j76201309766164_1_alg».proof.Proof.Gen.KernelIdeal
import proofs.«404706_j76201309766164_1_alg».proof.Proof.Gen.ReferenceIdeal
import proofs.«404706_j76201309766164_1_alg».proof.Proof.Gen.Pre_finite_inputs
import proofs.«404706_j76201309766164_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
